-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000x16 : Shape := ⟨2, ![640000, 16]⟩
abbrev S20000x1 : Shape := ⟨2, ![20000, 1]⟩
abbrev S640000x1 : Shape := ⟨2, ![640000, 1]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S20000x1 : S_.BroadcastsInDim S20000x1 (![] : Fin 0 → Fin S20000x1.rank)
  reducesTo_S20000x1_S_d0_1 : S20000x1.ReducesTo [0, 1] S_
  bcast_S_S640000x1 : S_.BroadcastsInDim S640000x1 (![] : Fin 0 → Fin S640000x1.rank)
  reducesTo_S640000x1_S_d0_1 : S640000x1.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_arg1 : IVec S2x640000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x640000 32 := broadcastInDim S2x640000 ![] bcast_S_S2x640000 main_c_26
  let main_v70 : IVec S2x640000 1 := cmpi .sge main_arg1 main_v69
  let main_c_27 : IVec S_ 32 := constantI S_ 32 20000#32
  let main_v71 : IVec S2x640000 32 := broadcastInDim S2x640000 ![] bcast_S_S2x640000 main_c_27
  let main_v72 : IVec S2x640000 1 := cmpi .slt main_arg1 main_v71
  let main_v73 : IVec S2x640000 1 := andi main_v70 main_v72
  let main_c_28 : IVec S_ 1 := constantI S_ 1 1#1
  let main_v74 : IVec S_ 1 := (fun x v => Host.reduce IntOp.andi x v reducesTo_S2x640000_S_d0_1 h_S_) main_v73 main_c_28
  let main_v75 : IVec S_ 1 := andi main_v68 main_v74
  main_v75

def fn_part3 {F : FTy → Type} [FloatOps F] (main_arg1 : IVec S2x640000 32) (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x640000 32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_v48 main_v49 main_v50

def fn_part1 {F : FTy → Type} [FloatOps F] (main_arg1 : IVec S2x640000 32) (main_arg5 : FVec F S272x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) (main_v13 : IVec S_ 1) (main_v16 : IVec S640000x1 1) : IVec S_ 1 :=
  let main_c_5 : IVec S_ 1 := constantI S_ 1 1#1
  let main_v17 : IVec S_ 1 := (fun x v => Host.reduce IntOp.andi x v reducesTo_S640000x1_S_d0_1 h_S_) main_v16 main_c_5
  let main_v18 : IVec S_ 1 := andi main_v13 main_v17
  let main_v19 : FVec F S272x128 .f32 := Host.absf main_arg5
  let main_cst_6 : FVec F S_ .f32 := constant S_ .f32 0x7F800000#32
  let main_v20 : FVec F S272x128 .f32 := broadcastInDim S272x128 ![] bcast_S_S272x128 main_cst_6
  let main_v21 : IVec S272x128 1 := cmpf .olt main_v19 main_v20
  let main_c_7 : IVec S_ 1 := constantI S_ 1 1#1
  let main_v22 : IVec S_ 1 := (fun x v => Host.reduce IntOp.andi x v reducesTo_S272x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S20000x128 .f32) (main_arg1 : IVec S2x640000 32) (main_arg2 : FVec F S640000x16 .f32) (main_arg3 : FVec F S20000x1 .f32) (main_arg4 : FVec F S640000x1 .f32) (main_arg5 : FVec F S272x128 .f32) (main_arg6 : FVec F S128 .f32) (main_arg7 : FVec F S128x128 .f32) (main_arg8 : FVec F S128 .f32) (main_arg9 : FVec F S128x1 .f32) (main_arg10 : FVec F S1 .f32) (main_arg11 : FVec F S256x128 .f32) (main_arg12 : FVec F S128 .f32) (main_arg13 : FVec F S128x128 .f32) (main_arg14 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S20000x1 .f32 := Host.absf main_arg3
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S640000x1 .f32 := Host.absf main_arg4
  let main_cst_4 : FVec F S_ .f32 := constant S_ .f32 0x7F800000#32
  let main_v15 : FVec F S640000x1 .f32 := broadcastInDim S640000x1 ![] bcast_S_S640000x1 main_cst_4
  let main_v16 : IVec S640000x1 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S20000x128 : Shape := ⟨2, ![20000, 128]⟩
abbrev S2x640000 : Shape := ⟨2, ![2, 640000]⟩
abbrev S640000x16 : Shape := ⟨2, ![640000, 16]⟩
abbrev S20000x1 : Shape := ⟨2, ![20000, 1]⟩
abbrev S640000x1 : Shape := ⟨2, ![640000, 1]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S1x1 : Shape := ⟨2, ![1, 1]⟩
abbrev S640000x128 : Shape := ⟨2, ![640000, 128]⟩
abbrev S1x128 : Shape := ⟨2, ![1, 128]⟩
abbrev S8000x128 : Shape := ⟨2, ![8000, 128]⟩
abbrev S8000x16 : Shape := ⟨2, ![8000, 16]⟩
abbrev S8000x1 : Shape := ⟨2, ![8000, 1]⟩
abbrev S8000x272 : Shape := ⟨2, ![8000, 272]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 76
  | .vmem => 28
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x16, .f32⟩
  | .hbm, ⟨3, _⟩ => ⟨S20000x1, .f32⟩
  | .hbm, ⟨4, _⟩ => ⟨S640000x1, .f32⟩
  | .hbm, ⟨5, _⟩ => ⟨S272x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S1, .i32⟩
  | .hbm, ⟨28, _⟩ => ⟨S_, .i32⟩
  | .hbm, ⟨29, _⟩ => ⟨S640000x1, .i32⟩
  | .hbm, ⟨30, _⟩ => ⟨S640000x1, .i1⟩
  | .hbm, ⟨31, _⟩ => ⟨S1x1, .i32⟩
  | .hbm, ⟨32, _⟩ => ⟨S640000x1, .i32⟩
  | .hbm, ⟨33, _⟩ => ⟨S640000x1, .i1⟩
  | .hbm, ⟨34, _⟩ => ⟨S640000x1, .i1⟩
  | .hbm, ⟨35, _⟩ => ⟨S_, .i1⟩
  | .hbm, ⟨36, _⟩ => ⟨S640000, .i1⟩
  | .hbm, ⟨37, _⟩ => ⟨S640000x128, .f32⟩
  | .hbm, ⟨38, _⟩ => ⟨S640000x128, .i1⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S1, .i32⟩
  | .hbm, ⟨51, _⟩ => ⟨S_, .i32⟩
  | .hbm, ⟨52, _⟩ => ⟨S640000x1, .i32⟩
  | .hbm, ⟨53, _⟩ => ⟨S640000x1, .i1⟩
  | .hbm, ⟨54, _⟩ => ⟨S1x1, .i32⟩
  | .hbm, ⟨55, _⟩ => ⟨S640000x1, .i32⟩
  | .hbm, ⟨56, _⟩ => ⟨S640000x1, .i1⟩
  | .hbm, ⟨57, _⟩ => ⟨S640000x1, .i1⟩
  | .hbm, ⟨58, _⟩ => ⟨S_, .i1⟩
  | .hbm, ⟨59, _⟩ => ⟨S640000, .i1⟩
  | .hbm, ⟨60, _⟩ => ⟨S640000x128, .f32⟩
  | .hbm, ⟨61, _⟩ => ⟨S640000x128, .i1⟩
  | .hbm, ⟨62, _⟩ => ⟨S_, .f32⟩
  | .hbm, ⟨63, _⟩ => ⟨S640000x128, .f32⟩
  | .hbm, ⟨64, _⟩ => ⟨S640000x128, .f32⟩
  | .hbm, ⟨65, _⟩ => ⟨S1x128, .f32⟩
  | .hbm, ⟨66, _⟩ => ⟨S1x128, .f32⟩
  | .hbm, ⟨67, _⟩ => ⟨S1x1, .f32⟩
  | .hbm, ⟨68, _⟩ => ⟨S640000x128, .f32⟩
  | .hbm, ⟨69, _⟩ => ⟨S_, .f32⟩
  | .hbm, ⟨70, _⟩ => ⟨S20000x128, .f32⟩
  | .hbm, ⟨71, _⟩ => ⟨S640000x1, .i32⟩
  | .hbm, ⟨72, _⟩ => ⟨S20000x128, .f32⟩
  | .hbm, ⟨73, _⟩ => ⟨S1x128, .f32⟩
  | .hbm, ⟨74, _⟩ => ⟨S1x128, .f32⟩
  | .hbm, ⟨75, _⟩ => ⟨S20000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x16, .f32⟩
  | .local _ .vmem, ⟨5, _⟩ => ⟨S8000x16, .f32⟩
  | .local _ .vmem, ⟨6, _⟩ => ⟨S8000x1, .f32⟩
  | .local _ .vmem, ⟨7, _⟩ => ⟨S8000x1, .f32⟩
  | .local _ .vmem, ⟨8, _⟩ => ⟨S272x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S8000x128, .f32⟩
  | .local _ .vmem, ⟨15, _⟩ => ⟨S8000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S256x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_cst : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S272x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x16_S8000x16_0_0 : ∀ a, (![0, 0] : Fin 2 → Nat) a + S8000x16.size a ≤ S8000x16.size a
  h_S8000x16 : 0 < S8000x16.numel
  concatenates_S8000x128_S8000x128_S8000x16_S8000x272_d1 : Shape.Concatenates [S8000x128, S8000x128, S8000x16] S8000x272 1
  inb_S272x128_S272x128_0_0 : ∀ a, (![0, 0] : Fin 2 → Nat) a + S272x128.size a ≤ S272x128.size a
  h_S272x128 : 0 < S272x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  broadcasts_S8000x1_S8000x128 : S8000x1.Broadcasts S8000x128
  bcast_S_S20000x128 : S_.BroadcastsInDim S20000x128 (![] : Fin 0 → Fin S20000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  gather_S20000x128_S640000x1_S640000x128_1_0_n_n_0_1_1128_wf : GatherDims.WF S20000x128 S640000x1 S640000x128 [1] [0] [] [0] [] 1 ![1, 128]
  dot_S8000x272_S272x128_S8000x128_1_0_0_1_n_n_wf : DotDims.WF S8000x272 S272x128 S8000x128 [1] [0] [0] [1] [] []
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  scatter_S20000x128_S640000x1_S640000x128_1_0_0_1_wf : ScatterDims.WF S20000x128 S640000x1 S640000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S640000x16.size a
  hwx0_2 : ∀ i : grid0.Coords, EltTy.bits .f32 = 32 ∨ (Rect.block (s := S640000x16) S8000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S640000x1.size a
  hwx0_3 : ∀ i : grid0.Coords, EltTy.bits .f32 = 32 ∨ (Rect.block (s := S640000x1) S8000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S272x128.size a ≤ S272x128.size a
  hwx0_4 : ∀ i : grid0.Coords, EltTy.bits .f32 = 32 ∨ (Rect.block (s := S272x128) S272x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x128.size a ≤ S640000x128.size a
  hwx0_10 : ∀ i : grid0.Coords, EltTy.bits .f32 = 32 ∨ (Rect.block (s := S640000x128) S8000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S20000x128.size a
  hwx1_1 : ∀ i : grid1.Coords, EltTy.bits .f32 = 32 ∨ (Rect.block (s := S20000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S20000x1.size a
  hwx1_2 : ∀ i : grid1.Coords, EltTy.bits .f32 = 32 ∨ (Rect.block (s := S20000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S20000x128.size a
  hwx1_7 : ∀ i : grid1.Coords, EltTy.bits .f32 = 32 ∨ (Rect.block (s := S20000x128) S5000x128.size (cc1_transform_7 i) (hinb1_7 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S8000x272_S272x128_S8000x128_1_0_0_1_n_n : DotDims S8000x272 S272x128 S8000x128 where
  lhsContracting := [1]
  rhsContracting := [0]
  lhsNonContracting := [0]
  rhsNonContracting := [1]
  lhsBatch := []
  rhsBatch := []
  wf := dot_S8000x272_S272x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S272x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S8000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000x16 : Shape := ⟨2, ![640000, 16]⟩
abbrev S20000x1 : Shape := ⟨2, ![20000, 1]⟩
abbrev S640000x1 : Shape := ⟨2, ![640000, 1]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S640000x272 : Shape := ⟨2, ![640000, 272]⟩
abbrev S1x128 : Shape := ⟨2, ![1, 128]⟩
abbrev S1x1 : Shape := ⟨2, ![1, 1]⟩
abbrev S20000x256 : Shape := ⟨2, ![20000, 256]⟩

abbrev nBuf : Space → Nat
  | .hbm => 105
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x16, .f32⟩
  | .hbm, ⟨3, _⟩ => ⟨S20000x1, .f32⟩
  | .hbm, ⟨4, _⟩ => ⟨S640000x1, .f32⟩
  | .hbm, ⟨5, _⟩ => ⟨S272x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x272, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S_, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S1x128, .f32⟩
  | .hbm, ⟨53, _⟩ => ⟨S640000x128, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S640000x128, .f32⟩
  | .hbm, ⟨59, _⟩ => ⟨S640000x128, .f32⟩
  | .hbm, ⟨60, _⟩ => ⟨S_, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S640000x1, .f32⟩
  | .hbm, ⟨65, _⟩ => ⟨S1x1, .f32⟩
  | .hbm, ⟨66, _⟩ => ⟨S640000x1, .f32⟩
  | .hbm, ⟨67, _⟩ => ⟨S640000x1, .f32⟩
  | .hbm, ⟨68, _⟩ => ⟨S640000x1, .f32⟩
  | .hbm, ⟨69, _⟩ => ⟨S640000x1, .f32⟩
  | .hbm, ⟨70, _⟩ => ⟨S_, .f32⟩
  | .hbm, ⟨71, _⟩ => ⟨S640000x1, .f32⟩
  | .hbm, ⟨72, _⟩ => ⟨S640000x1, .f32⟩
  | .hbm, ⟨73, _⟩ => ⟨S_, .f32⟩
  | .hbm, ⟨74, _⟩ => ⟨S640000x1, .f32⟩
  | .hbm, ⟨75, _⟩ => ⟨S640000x1, .f32⟩
  | .hbm, ⟨76, _⟩ => ⟨S640000x128, .f32⟩
  | .hbm, ⟨77, _⟩ => ⟨S640000x128, .f32⟩
  | .hbm, ⟨78, _⟩ => ⟨S640000x128, .f32⟩
  | .hbm, ⟨79, _⟩ => ⟨S640000x128, .f32⟩
  | .hbm, ⟨80, _⟩ => ⟨S_, .f32⟩
  | .hbm, ⟨81, _⟩ => ⟨S20000x128, .f32⟩
  | .hbm, ⟨82, _⟩ => ⟨S640000x1, .i32⟩
  | .hbm, ⟨83, _⟩ => ⟨S20000x128, .f32⟩
  | .hbm, ⟨84, _⟩ => ⟨S20000x256, .f32⟩
  | .hbm, ⟨85, _⟩ => ⟨S20000x128, .f32⟩
  | .hbm, ⟨86, _⟩ => ⟨S1x128, .f32⟩
  | .hbm, ⟨87, _⟩ => ⟨S20000x128, .f32⟩
  | .hbm, ⟨88, _⟩ => ⟨S20000x128, .f32⟩
  | .hbm, ⟨89, _⟩ => ⟨S20000x128, .f32⟩
  | .hbm, ⟨90, _⟩ => ⟨S20000x128, .f32⟩
  | .hbm, ⟨91, _⟩ => ⟨S_, .f32⟩
  | .hbm, ⟨92, _⟩ => ⟨S20000x128, .f32⟩
  | .hbm, ⟨93, _⟩ => ⟨S20000x128, .f32⟩
  | .hbm, ⟨94, _⟩ => ⟨S_, .f32⟩
  | .hbm, ⟨95, _⟩ => ⟨S20000x128, .f32⟩
  | .hbm, ⟨96, _⟩ => ⟨S20000x128, .f32⟩
  | .hbm, ⟨97, _⟩ => ⟨S20000x128, .f32⟩
  | .hbm, ⟨98, _⟩ => ⟨S20000x128, .f32⟩
  | .hbm, ⟨99, _⟩ => ⟨S1x128, .f32⟩
  | .hbm, ⟨100, _⟩ => ⟨S20000x128, .f32⟩
  | .hbm, ⟨101, _⟩ => ⟨S20000x128, .f32⟩
  | .hbm, ⟨102, _⟩ => ⟨S20000x128, .f32⟩
  | .hbm, ⟨103, _⟩ => ⟨S20000x128, .f32⟩
  | .hbm, ⟨104, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst : Ref sig .tc := ⟨.hbm, 70, rfl⟩
abbrev main_v35 : Ref sig .tc := ⟨.hbm, 71, rfl⟩
abbrev main_v36 : Ref sig .tc := ⟨.hbm, 72, rfl⟩
abbrev main_cst_3 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_4 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x16_S640000x272_d1 : Shape.Concatenates [S640000x128, S640000x128, S640000x16] S640000x272 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  bcast_S20000x1_S20000x128_0_1 : S20000x1.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x272_S272x128_S640000x128_1_0_0_1_n_n_wf : DotDims.WF S640000x272 S272x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S20000x128_S640000x1_S640000x128_1_0_0_1_wf : ScatterDims.WF S20000x128 S640000x1 S640000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x272_S272x128_S640000x128_1_0_0_1_n_n : DotDims S640000x272 S272x128 S640000x128 where
  lhsContracting := [1]
  rhsContracting := [0]
  lhsNonContracting := [0]
  rhsNonContracting := [1]
  lhsBatch := []
  rhsBatch := []
  wf := dot_S640000x272_S272x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.RefChunks.lean ====
/- The reference's ninety host operations cut into seven stretches: the index preparation and the two row lookups;
   the first dense layer of the edge network; the second; the attention gate and the masked message; the sum into node
   rows and the concatenation with the node features; the first dense layer of the node network; the second with the
   residual and the flags. Each stretch reads few buffers of the stretches before it, so the contents after the whole
   line are read one stretch at a time. -/
import proofs.«404033_j12610023981467_1_alg».proof.Proof.RefOps
import Idealize.ShloMosaic.Lib.Pipeline.Frame

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Operations 1 to 22 of the reference's @main. -/
abbrev C1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 20000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v3 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 20000#32),
    unary main_c_2 main_v13 (broadcastInDim S640000 ![] bcast_S_S640000 : (⟨S_, .i32⟩ : BufTy).Contents (Elt F) → (⟨S640000, .i32⟩ : BufTy).Contents (Elt F)),
    binary main_v3 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v3 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)) ]

/-- Operations 23 to 36 of the reference's @main. -/
abbrev C2 : List (HloOp τ sig (Elt F)) :=
  [ nary ![main_v10, main_v17, main_arg2] main_v18 (fun u => concatenate S640000x272 1 [⟨S640000x128, u 0⟩, ⟨S640000x128, u 1⟩, ⟨S640000x16, u 2⟩] concatenates_S640000x128_S640000x128_S640000x16_S640000x272_d1),
    binary main_v18 main_arg5 main_v19 ((fun l r => Host.dotGeneral dot_S640000x272_S272x128_S640000x128_1_0_0_1_n_n none l r) : (⟨S640000x272, .f32⟩ : BufTy).Contents (Elt F) → (⟨S272x128, .f32⟩ : BufTy).Contents (Elt F) → (⟨S640000x128, .f32⟩ : BufTy).Contents (Elt F)),
    unary main_arg6 main_v20 (broadcastInDim S1x128 ![1] bcast_S128_S1x128_1 : (⟨S128, .f32⟩ : BufTy).Contents (Elt F) → (⟨S1x128, .f32⟩ : BufTy).Contents (Elt F)),
    unary main_v20 main_v21 (broadcastInDim S640000x128 ![0, 1] bcast_S1x128_S640000x128_0_1 : (⟨S1x128, .f32⟩ : BufTy).Contents (Elt F) → (⟨S640000x128, .f32⟩ : BufTy).Contents (Elt F)),
    binary main_v19 main_v21 main_v22 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v22) (TRef.of (T := ⟨S640000x128, .f32⟩) main_call0_v0) Host.negf,
    TRef.unary (TRef.of (T := ⟨S640000x128, .f32⟩) main_call0_v0) (TRef.of (T := ⟨S640000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S640000x128, .f32⟩) main_call0_v2) (broadcastInDim S640000x128 ![] bcast_S_S640000x128),
    TRef.binary (TRef.of (T := ⟨S640000x128, .f32⟩) main_call0_v2) (TRef.of (T := ⟨S640000x128, .f32⟩) main_call0_v1) (TRef.of (T := ⟨S640000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S640000x128, .f32⟩) main_call0_v4) (broadcastInDim S640000x128 ![] bcast_S_S640000x128),
    TRef.binary (TRef.of (T := ⟨S640000x128, .f32⟩) main_call0_v4) (TRef.of (T := ⟨S640000x128, .f32⟩) main_call0_v3) (TRef.of (T := ⟨S640000x128, .f32⟩) main_call0_v5) Host.divf,
    TRef.binary (TRef.of (T := ⟨S640000x128, .f32⟩) main_v22) (TRef.of (T := ⟨S640000x128, .f32⟩) main_call0_v5) (TRef.of (T := ⟨S640000x128, .f32⟩) main_v23) mulf ]

/-- Operations 37 to 49 of the reference's @main. -/
abbrev C3 : List (HloOp τ sig (Elt F)) :=
  [ binary main_v23 main_arg7 main_v24 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg8 main_v25 (broadcastInDim S1x128 ![1] bcast_S128_S1x128_1 : (⟨S128, .f32⟩ : BufTy).Contents (Elt F) → (⟨S1x128, .f32⟩ : BufTy).Contents (Elt F)),
    unary main_v25 main_v26 (broadcastInDim S640000x128 ![0, 1] bcast_S1x128_S640000x128_0_1 : (⟨S1x128, .f32⟩ : BufTy).Contents (Elt F) → (⟨S640000x128, .f32⟩ : BufTy).Contents (Elt F)),
    binary main_v24 main_v26 main_v27 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v27) (TRef.of (T := ⟨S640000x128, .f32⟩) main_call1_v0) Host.negf,
    TRef.unary (TRef.of (T := ⟨S640000x128, .f32⟩) main_call1_v0) (TRef.of (T := ⟨S640000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S640000x128, .f32⟩) main_call1_v2) (broadcastInDim S640000x128 ![] bcast_S_S640000x128),
    TRef.binary (TRef.of (T := ⟨S640000x128, .f32⟩) main_call1_v2) (TRef.of (T := ⟨S640000x128, .f32⟩) main_call1_v1) (TRef.of (T := ⟨S640000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S640000x128, .f32⟩) main_call1_v4) (broadcastInDim S640000x128 ![] bcast_S_S640000x128),
    TRef.binary (TRef.of (T := ⟨S640000x128, .f32⟩) main_call1_v4) (TRef.of (T := ⟨S640000x128, .f32⟩) main_call1_v3) (TRef.of (T := ⟨S640000x128, .f32⟩) main_call1_v5) Host.divf,
    TRef.binary (TRef.of (T := ⟨S640000x128, .f32⟩) main_v27) (TRef.of (T := ⟨S640000x128, .f32⟩) main_call1_v5) (TRef.of (T := ⟨S640000x128, .f32⟩) main_v28) mulf ]

/-- Operations 50 to 65 of the reference's @main. -/
abbrev C4 : List (HloOp τ sig (Elt F)) :=
  [ binary main_v28 main_arg9 main_v29 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    unary main_arg10 main_v30 (broadcastInDim S1x1 ![1] bcast_S1_S1x1_1 : (⟨S1, .f32⟩ : BufTy).Contents (Elt F) → (⟨S1x1, .f32⟩ : BufTy).Contents (Elt F)),
    unary main_v30 main_v31 (broadcastInDim S640000x1 ![0, 1] bcast_S1x1_S640000x1_0_1 : (⟨S1x1, .f32⟩ : BufTy).Contents (Elt F) → (⟨S640000x1, .f32⟩ : BufTy).Contents (Elt F)),
    binary main_v29 main_v31 main_v32 (addf : (⟨S640000x1, .f32⟩ : BufTy).Contents (Elt F) → (⟨S640000x1, .f32⟩ : BufTy).Contents (Elt F) → (⟨S640000x1, .f32⟩ : BufTy).Contents (Elt F)),
    unary main_v32 main_v33 (Host.negf : (⟨S640000x1, .f32⟩ : BufTy).Contents (Elt F) → (⟨S640000x1, .f32⟩ : BufTy).Contents (Elt F)),
    unary main_v33 main_v34 (Host.exp : (⟨S640000x1, .f32⟩ : BufTy).Contents (Elt F) → (⟨S640000x1, .f32⟩ : BufTy).Contents (Elt F)),
    nullary main_cst (constant S_ .f32 0x3F800000#32),
    unary main_cst main_v35 (broadcastInDim S640000x1 ![] bcast_S_S640000x1 : (⟨S_, .f32⟩ : BufTy).Contents (Elt F) → (⟨S640000x1, .f32⟩ : BufTy).Contents (Elt F)),
    binary main_v35 main_v34 main_v36 (addf : (⟨S640000x1, .f32⟩ : BufTy).Contents (Elt F) → (⟨S640000x1, .f32⟩ : BufTy).Contents (Elt F) → (⟨S640000x1, .f32⟩ : BufTy).Contents (Elt F)),
    nullary main_cst_3 (constant S_ .f32 0x3F800000#32),
    unary main_cst_3 main_v37 (broadcastInDim S640000x1 ![] bcast_S_S640000x1 : (⟨S_, .f32⟩ : BufTy).Contents (Elt F) → (⟨S640000x1, .f32⟩ : BufTy).Contents (Elt F)),
    binary main_v37 main_v36 main_v38 (Host.divf : (⟨S640000x1, .f32⟩ : BufTy).Contents (Elt F) → (⟨S640000x1, .f32⟩ : BufTy).Contents (Elt F) → (⟨S640000x1, .f32⟩ : BufTy).Contents (Elt F)),
    unary main_v38 main_v39 (broadcastInDim S640000x128 ![0, 1] bcast_S640000x1_S640000x128_0_1 : (⟨S640000x1, .f32⟩ : BufTy).Contents (Elt F) → (⟨S640000x128, .f32⟩ : BufTy).Contents (Elt F)),
    binary main_v28 main_v39 main_v40 (mulf : (⟨S640000x128, .f32⟩ : BufTy).Contents (Elt F) → (⟨S640000x128, .f32⟩ : BufTy).Contents (Elt F) → (⟨S640000x128, .f32⟩ : BufTy).Contents (Elt F)),
    unary main_arg4 main_v41 (broadcastInDim S640000x128 ![0, 1] bcast_S640000x1_S640000x128_0_1 : (⟨S640000x1, .f32⟩ : BufTy).Contents (Elt F) → (⟨S640000x128, .f32⟩ : BufTy).Contents (Elt F)),
    binary main_v40 main_v41 main_v42 (mulf : (⟨S640000x128, .f32⟩ : BufTy).Contents (Elt F) → (⟨S640000x128, .f32⟩ : BufTy).Contents (Elt F) → (⟨S640000x128, .f32⟩ : BufTy).Contents (Elt F)) ]

/-- Operations 66 to 70 of the reference's @main. -/
abbrev C5 : List (HloOp τ sig (Elt F)) :=
  [ nullary main_cst_4 (constant S_ .f32 0x00000000#32),
    unary main_cst_4 main_v43 (broadcastInDim S20000x128 ![] bcast_S_S20000x128 : (⟨S_, .f32⟩ : BufTy).Contents (Elt F) → (⟨S20000x128, .f32⟩ : BufTy).Contents (Elt F)),
    unary main_v1 main_v44 (broadcastInDim S640000x1 ![0] bcast_S640000_S640000x1_0 : (⟨S640000, .i32⟩ : BufTy).Contents (Elt F) → (⟨S640000x1, .i32⟩ : BufTy).Contents (Elt F)),
    ternary main_v43 main_v44 main_v42 main_v45 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    binary main_arg0 main_v45 main_v46 ((fun a b => concatenate S20000x256 1 [⟨S20000x128, a⟩, ⟨S20000x128, b⟩] concatenates_S20000x128_S20000x128_S20000x256_d1) : (⟨S20000x128, .f32⟩ : BufTy).Contents (Elt F) → (⟨S20000x128, .f32⟩ : BufTy).Contents (Elt F) → (⟨S20000x256, .f32⟩ : BufTy).Contents (Elt F)) ]

/-- Operations 71 to 83 of the reference's @main. -/
abbrev C6 : List (HloOp τ sig (Elt F)) :=
  [ binary main_v46 main_arg11 main_v47 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg12 main_v48 (broadcastInDim S1x128 ![1] bcast_S128_S1x128_1 : (⟨S128, .f32⟩ : BufTy).Contents (Elt F) → (⟨S1x128, .f32⟩ : BufTy).Contents (Elt F)),
    unary main_v48 main_v49 (broadcastInDim S20000x128 ![0, 1] bcast_S1x128_S20000x128_0_1 : (⟨S1x128, .f32⟩ : BufTy).Contents (Elt F) → (⟨S20000x128, .f32⟩ : BufTy).Contents (Elt F)),
    binary main_v47 main_v49 main_v50 (addf : (⟨S20000x128, .f32⟩ : BufTy).Contents (Elt F) → (⟨S20000x128, .f32⟩ : BufTy).Contents (Elt F) → (⟨S20000x128, .f32⟩ : BufTy).Contents (Elt F)),
    TRef.unary (TRef.of (T := ⟨S20000x128, .f32⟩) main_v50) (TRef.of (T := ⟨S20000x128, .f32⟩) main_call2_v0) Host.negf,
    TRef.unary (TRef.of (T := ⟨S20000x128, .f32⟩) main_call2_v0) (TRef.of (T := ⟨S20000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S20000x128, .f32⟩) main_call2_v2) (broadcastInDim S20000x128 ![] bcast_S_S20000x128),
    TRef.binary (TRef.of (T := ⟨S20000x128, .f32⟩) main_call2_v2) (TRef.of (T := ⟨S20000x128, .f32⟩) main_call2_v1) (TRef.of (T := ⟨S20000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S20000x128, .f32⟩) main_call2_v4) (broadcastInDim S20000x128 ![] bcast_S_S20000x128),
    TRef.binary (TRef.of (T := ⟨S20000x128, .f32⟩) main_call2_v4) (TRef.of (T := ⟨S20000x128, .f32⟩) main_call2_v3) (TRef.of (T := ⟨S20000x128, .f32⟩) main_call2_v5) Host.divf,
    TRef.binary (TRef.of (T := ⟨S20000x128, .f32⟩) main_v50) (TRef.of (T := ⟨S20000x128, .f32⟩) main_call2_v5) (TRef.of (T := ⟨S20000x128, .f32⟩) main_v51) mulf ]

/-- Operations 84 to 90 of the reference's @main. -/
abbrev C7 : List (HloOp τ sig (Elt F)) :=
  [ binary main_v51 main_arg13 main_v52 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg14 main_v53 (broadcastInDim S1x128 ![1] bcast_S128_S1x128_1 : (⟨S128, .f32⟩ : BufTy).Contents (Elt F) → (⟨S1x128, .f32⟩ : BufTy).Contents (Elt F)),
    unary main_v53 main_v54 (broadcastInDim S20000x128 ![0, 1] bcast_S1x128_S20000x128_0_1 : (⟨S1x128, .f32⟩ : BufTy).Contents (Elt F) → (⟨S20000x128, .f32⟩ : BufTy).Contents (Elt F)),
    binary main_v52 main_v54 main_v55 (addf : (⟨S20000x128, .f32⟩ : BufTy).Contents (Elt F) → (⟨S20000x128, .f32⟩ : BufTy).Contents (Elt F) → (⟨S20000x128, .f32⟩ : BufTy).Contents (Elt F)),
    binary main_arg0 main_v55 main_v56 (addf : (⟨S20000x128, .f32⟩ : BufTy).Contents (Elt F) → (⟨S20000x128, .f32⟩ : BufTy).Contents (Elt F) → (⟨S20000x128, .f32⟩ : BufTy).Contents (Elt F)),
    unary main_arg3 main_v57 (broadcastInDim S20000x128 ![0, 1] bcast_S20000x1_S20000x128_0_1 : (⟨S20000x1, .f32⟩ : BufTy).Contents (Elt F) → (⟨S20000x128, .f32⟩ : BufTy).Contents (Elt F)),
    binary main_v56 main_v57 main_v58 (mulf : (⟨S20000x128, .f32⟩ : BufTy).Contents (Elt F) → (⟨S20000x128, .f32⟩ : BufTy).Contents (Elt F) → (⟨S20000x128, .f32⟩ : BufTy).Contents (Elt F)) ]

/-- The buffers stretch 1 writes. -/
abbrev W1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]
/-- The buffers stretch 2 writes. -/
abbrev W2 : List (Ref sig .tc) := [main_v18, main_v19, main_v20, main_v21, main_v22, main_call0_v0, main_call0_v1, main_call0_cst, main_call0_v2, main_call0_v3, main_call0_cst_0, main_call0_v4, main_call0_v5, main_v23]
/-- The buffers stretch 3 writes. -/
abbrev W3 : List (Ref sig .tc) := [main_v24, main_v25, main_v26, main_v27, main_call1_v0, main_call1_v1, main_call1_cst, main_call1_v2, main_call1_v3, main_call1_cst_0, main_call1_v4, main_call1_v5, main_v28]
/-- The buffers stretch 4 writes. -/
abbrev W4 : List (Ref sig .tc) := [main_v29, main_v30, main_v31, main_v32, main_v33, main_v34, main_cst, main_v35, main_v36, main_cst_3, main_v37, main_v38, main_v39, main_v40, main_v41, main_v42]
/-- The buffers stretch 5 writes. -/
abbrev W5 : List (Ref sig .tc) := [main_cst_4, main_v43, main_v44, main_v45, main_v46]
/-- The buffers stretch 6 writes. -/
abbrev W6 : List (Ref sig .tc) := [main_v47, main_v48, main_v49, main_v50, main_call2_v0, main_call2_v1, main_call2_cst, main_call2_v2, main_call2_v3, main_call2_cst_0, main_call2_v4, main_call2_v5, main_v51]
/-- The buffers stretch 7 writes. -/
abbrev W7 : List (Ref sig .tc) := [main_v52, main_v53, main_v54, main_v55, main_v56, main_v57, main_v58]

set_option maxRecDepth 8192 in
/-- The operation list is the seven stretches in order. -/
theorem ops_split : (Cert.ReferenceIdeal.ValueP.ops (F := F)) = C1 ++ (C2 ++ (C3 ++ (C4 ++ (C5 ++ (C6 ++ C7))))) := rfl

/-- The contents after the whole line: the stretches' folds, one after the other. -/
theorem after_ops (V : Valuation τ sig (Elt F)) :
    StableHlo.after (Cert.ReferenceIdeal.ValueP.ops (F := F)) V
      = StableHlo.after C7 (StableHlo.after C6 (StableHlo.after C5 (StableHlo.after C4 (StableHlo.after C3 (StableHlo.after C2 (StableHlo.after C1 V)))))) := by
  rw [ops_split, StableHlo.after_append, StableHlo.after_append, StableHlo.after_append, StableHlo.after_append,
    StableHlo.after_append, StableHlo.after_append]

end Cert.ReferenceIdeal.Chunks

end
-- ==== Proof.RefChunkA.lean ====
/- The first four stretches of the reference's line, each read at the buffers later stretches read: the source index
   vector and the two arrays of looked-up rows; the first hidden layer; the second; the masked, gated messages. -/
import proofs.«404033_j12610023981467_1_alg».proof.Proof.RefChunks
import proofs.«404033_j12610023981467_1_alg».proof.Proof.RefRead

set_option maxRecDepth 8192

noncomputable section

namespace Cert.ReferenceIdeal.Chunks

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F] (V : Valuation τ sig (Elt F))

namespace A

/-- x ↦ x · (1 / (1 + e^(-x))), elementwise on an array of edge rows, as the reference's line spells it. -/
def siluOf (t : (⟨S640000x128, .f32⟩ : BufTy).Contents (Elt F)) : (⟨S640000x128, .f32⟩ : BufTy).Contents (Elt F) :=
  mulf t (Host.divf (broadcastInDim S640000x128 ![] bcast_S_S640000x128 (constant S_ .f32 0x3F800000#32))
    (addf (broadcastInDim S640000x128 ![] bcast_S_S640000x128 (constant S_ .f32 0x3F800000#32)) (Host.exp (Host.negf t))))

/-- The first hidden layer as a function of the two arrays of looked-up rows, the edge attributes and the first layer's
    weights. -/
def hid1Of (y10 y17 : (⟨S640000x128, .f32⟩ : BufTy).Contents (Elt F)) (x2 : (⟨S640000x16, .f32⟩ : BufTy).Contents (Elt F))
    (x5 : (⟨S272x128, .f32⟩ : BufTy).Contents (Elt F)) (x6 : (⟨S128, .f32⟩ : BufTy).Contents (Elt F)) :
    (⟨S640000x128, .f32⟩ : BufTy).Contents (Elt F) :=
  siluOf (addf
    (Host.dotGeneral dot_S640000x272_S272x128_S640000x128_1_0_0_1_n_n none
      (concatenate S640000x272 1 [⟨S640000x128, y10⟩, ⟨S640000x128, y17⟩, ⟨S640000x16, x2⟩]
        concatenates_S640000x128_S640000x128_S640000x16_S640000x272_d1) x5)
    (broadcastInDim S640000x128 ![0, 1] bcast_S1x128_S640000x128_0_1 (broadcastInDim S1x128 ![1] bcast_S128_S1x128_1 x6)))

/-- The reference's first hidden layer is that function of its two lookups. -/
theorem hid1Of_val (x0 : (⟨S20000x128, .f32⟩ : BufTy).Contents (Elt F)) (x1 : (⟨S2x640000, .i32⟩ : BufTy).Contents (Elt F))
    (x2 : (⟨S640000x16, .f32⟩ : BufTy).Contents (Elt F)) (x5 : (⟨S272x128, .f32⟩ : BufTy).Contents (Elt F))
    (x6 : (⟨S128, .f32⟩ : BufTy).Contents (Elt F)) :
    hid1Of (val_main_v10 (F := F) x0 x1) (val_main_v17 (F := F) x0 x1) x2 x5 x6 = val_main_v23 (F := F) x0 x1 x2 x5 x6 := rfl

/-- After the second stretch the first hidden layer is that function of the contents the stretch reads. -/
theorem C2_hid1Of : StableHlo.after C2 V (Proc.devRef .tc main_v23)
    = hid1Of (V (Proc.devRef .tc main_v10)) (V (Proc.devRef .tc main_v17)) (V (Proc.devRef .tc main_arg2))
        (V (Proc.devRef .tc main_arg5)) (V (Proc.devRef .tc main_arg6)) := by
  after_results_simp
  rfl

end A

/-- After the first stretch the source index vector is row 0 of the edge list. -/
theorem C1_v1 : StableHlo.after C1 V (Proc.devRef .tc main_v1) = val_main_v1 (F := F) (V (Proc.devRef .tc main_arg1)) := by
  after_results_simp
  rfl

/-- After the first stretch the first lookup holds the rows the source indices name. -/
theorem C1_v10 : StableHlo.after C1 V (Proc.devRef .tc main_v10) = val_main_v10 (F := F) (V (Proc.devRef .tc main_arg0)) (V (Proc.devRef .tc main_arg1)) := by
  after_results_simp
  rfl

/-- After the first stretch the second lookup holds the rows the target indices name. -/
theorem C1_v17 : StableHlo.after C1 V (Proc.devRef .tc main_v17) = val_main_v17 (F := F) (V (Proc.devRef .tc main_arg0)) (V (Proc.devRef .tc main_arg1)) := by
  after_results_simp
  rfl

/-- The second stretch computes the first hidden layer from the two lookups, the edge attributes and the first layer's weights. -/
theorem C2_v23 (x0 : (⟨S20000x128, .f32⟩ : BufTy).Contents (Elt F)) (x1 : (⟨S2x640000, .i32⟩ : BufTy).Contents (Elt F))
    (h10 : (V (Proc.devRef .tc main_v10)) = val_main_v10 (F := F) x0 x1) (h17 : (V (Proc.devRef .tc main_v17)) = val_main_v17 (F := F) x0 x1) :
    StableHlo.after C2 V (Proc.devRef .tc main_v23)
      = val_main_v23 (F := F) x0 x1 (V (Proc.devRef .tc main_arg2)) (V (Proc.devRef .tc main_arg5)) (V (Proc.devRef .tc main_arg6)) := by
  rw [A.C2_hid1Of, h10, h17]
  exact A.hid1Of_val x0 x1 _ _ _

/-- The third stretch computes the second hidden layer from the first and the second layer's weights. -/
theorem C3_v28 (x0 : (⟨S20000x128, .f32⟩ : BufTy).Contents (Elt F)) (x1 : (⟨S2x640000, .i32⟩ : BufTy).Contents (Elt F)) (x2 : (⟨S640000x16, .f32⟩ : BufTy).Contents (Elt F)) (x5 : (⟨S272x128, .f32⟩ : BufTy).Contents (Elt F)) (x6 : (⟨S128, .f32⟩ : BufTy).Contents (Elt F))
    (h23 : (V (Proc.devRef .tc main_v23)) = val_main_v23 (F := F) x0 x1 x2 x5 x6) :
    StableHlo.after C3 V (Proc.devRef .tc main_v28)
      = val_main_v28 (F := F) x0 x1 x2 x5 x6 (V (Proc.devRef .tc main_arg7)) (V (Proc.devRef .tc main_arg8)) := by
  after_results_simp
  rw [h23]
  rfl

/-- The fourth stretch computes the gated, masked messages from the second hidden layer, the attention weights and the mask. -/
theorem C4_v42 (x0 : (⟨S20000x128, .f32⟩ : BufTy).Contents (Elt F)) (x1 : (⟨S2x640000, .i32⟩ : BufTy).Contents (Elt F)) (x2 : (⟨S640000x16, .f32⟩ : BufTy).Contents (Elt F)) (x5 : (⟨S272x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h28 : (V (Proc.devRef .tc main_v28)) = val_main_v28 (F := F) x0 x1 x2 x5 x6 x7 x8) :
    StableHlo.after C4 V (Proc.devRef .tc main_v42)
      = val_main_v42 (F := F) x0 x1 x2 (V (Proc.devRef .tc main_arg4)) x5 x6 x7 x8 (V (Proc.devRef .tc main_arg9)) (V (Proc.devRef .tc main_arg10)) := by
  after_results_simp
  rw [h28]
  rfl

end Cert.ReferenceIdeal.Chunks

end
-- ==== Proof.RefChunkB.lean ====
/- The last three stretches of the reference's line, each read at the buffer the next one reads — the node features
   beside the summed messages; the node network's hidden layer; the result — and, for every stretch, that a buffer it
   does not write keeps its contents. -/
import proofs.«404033_j12610023981467_1_alg».proof.Proof.RefChunks
import proofs.«404033_j12610023981467_1_alg».proof.Proof.RefRead

set_option maxRecDepth 8192

noncomputable section

namespace Cert.ReferenceIdeal.Chunks

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F] (V : Valuation τ sig (Elt F))

namespace B

/-- A reference of a list, as a one-element set of device buffers, lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end B

open B

/-- The fifth stretch sums the messages into their source nodes and joins the node features to the sums. -/
theorem C5_v46 (x0 : (⟨S20000x128, .f32⟩ : BufTy).Contents (Elt F)) (x1 : (⟨S2x640000, .i32⟩ : BufTy).Contents (Elt F)) (x2 : (⟨S640000x16, .f32⟩ : BufTy).Contents (Elt F)) (x4 : (⟨S640000x1, .f32⟩ : BufTy).Contents (Elt F)) (x5 : (⟨S272x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F))
    (h0 : (V (Proc.devRef .tc main_arg0)) = x0) (h1 : (V (Proc.devRef .tc main_v1)) = val_main_v1 (F := F) x1)
    (h42 : (V (Proc.devRef .tc main_v42)) = val_main_v42 (F := F) x0 x1 x2 x4 x5 x6 x7 x8 x9 x10) :
    StableHlo.after C5 V (Proc.devRef .tc main_v46) = val_main_v46 (F := F) x0 x1 x2 x4 x5 x6 x7 x8 x9 x10 := by
  after_results
  rw [h0, h1, h42]
  rfl

/-- The sixth stretch computes the node network's hidden layer. -/
theorem C6_v51 (x0 : (⟨S20000x128, .f32⟩ : BufTy).Contents (Elt F)) (x1 : (⟨S2x640000, .i32⟩ : BufTy).Contents (Elt F)) (x2 : (⟨S640000x16, .f32⟩ : BufTy).Contents (Elt F)) (x4 : (⟨S640000x1, .f32⟩ : BufTy).Contents (Elt F)) (x5 : (⟨S272x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F))
    (h46 : (V (Proc.devRef .tc main_v46)) = val_main_v46 (F := F) x0 x1 x2 x4 x5 x6 x7 x8 x9 x10) :
    StableHlo.after C6 V (Proc.devRef .tc main_v51)
      = val_main_v51 (F := F) x0 x1 x2 x4 x5 x6 x7 x8 x9 x10 (V (Proc.devRef .tc main_arg11)) (V (Proc.devRef .tc main_arg12)) := by
  after_results_simp
  rw [h46]
  rfl

/-- The seventh stretch computes the result: the second dense layer, the residual with the node features, the flags. -/
theorem C7_v58 (x0 : (⟨S20000x128, .f32⟩ : BufTy).Contents (Elt F)) (x1 : (⟨S2x640000, .i32⟩ : BufTy).Contents (Elt F)) (x2 : (⟨S640000x16, .f32⟩ : BufTy).Contents (Elt F)) (x4 : (⟨S640000x1, .f32⟩ : BufTy).Contents (Elt F)) (x5 : (⟨S272x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F)) (x11 : (⟨S256x128, .f32⟩ : BufTy).Contents (Elt F)) (x12 : (⟨S128, .f32⟩ : BufTy).Contents (Elt F))
    (h0 : (V (Proc.devRef .tc main_arg0)) = x0)
    (h51 : (V (Proc.devRef .tc main_v51)) = val_main_v51 (F := F) x0 x1 x2 x4 x5 x6 x7 x8 x9 x10 x11 x12) :
    StableHlo.after C7 V (Proc.devRef .tc main_v58)
      = val_main_v58 (F := F) x0 x1 x2 (V (Proc.devRef .tc main_arg3)) x4 x5 x6 x7 x8 x9 x10 x11 x12 (V (Proc.devRef .tc main_arg13)) (V (Proc.devRef .tc main_arg14)) := by
  after_results_simp
  rw [h0, h51]
  rfl

/-- A buffer stretch 1 does not write keeps its contents. -/
theorem C1_keep (r : Ref sig .tc) (hr : r ∉ W1) : StableHlo.after (C1 (F := F)) V (Proc.devRef .tc r) = V (Proc.devRef .tc r) := by
  refine StableHlo.after_of_writes_sub (W := W1) (r := r) C1 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

/-- A buffer stretch 2 does not write keeps its contents. -/
theorem C2_keep (r : Ref sig .tc) (hr : r ∉ W2) : StableHlo.after (C2 (F := F)) V (Proc.devRef .tc r) = V (Proc.devRef .tc r) := by
  refine StableHlo.after_of_writes_sub (W := W2) (r := r) C2 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

/-- A buffer stretch 3 does not write keeps its contents. -/
theorem C3_keep (r : Ref sig .tc) (hr : r ∉ W3) : StableHlo.after (C3 (F := F)) V (Proc.devRef .tc r) = V (Proc.devRef .tc r) := by
  refine StableHlo.after_of_writes_sub (W := W3) (r := r) C3 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

/-- A buffer stretch 4 does not write keeps its contents. -/
theorem C4_keep (r : Ref sig .tc) (hr : r ∉ W4) : StableHlo.after (C4 (F := F)) V (Proc.devRef .tc r) = V (Proc.devRef .tc r) := by
  refine StableHlo.after_of_writes_sub (W := W4) (r := r) C4 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

/-- A buffer stretch 5 does not write keeps its contents. -/
theorem C5_keep (r : Ref sig .tc) (hr : r ∉ W5) : StableHlo.after (C5 (F := F)) V (Proc.devRef .tc r) = V (Proc.devRef .tc r) := by
  refine StableHlo.after_of_writes_sub (W := W5) (r := r) C5 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

/-- A buffer stretch 6 does not write keeps its contents. -/
theorem C6_keep (r : Ref sig .tc) (hr : r ∉ W6) : StableHlo.after (C6 (F := F)) V (Proc.devRef .tc r) = V (Proc.devRef .tc r) := by
  refine StableHlo.after_of_writes_sub (W := W6) (r := r) C6 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

/-- A buffer stretch 7 does not write keeps its contents. -/
theorem C7_keep (r : Ref sig .tc) (hr : r ∉ W7) : StableHlo.after (C7 (F := F)) V (Proc.devRef .tc r) = V (Proc.devRef .tc r) := by
  refine StableHlo.after_of_writes_sub (W := W7) (r := r) C7 V ?_ hr
  simp only [List.Forall, StableHlo.nullary_writes, StableHlo.unary_writes, StableHlo.binary_writes,
    StableHlo.ternary_writes, StableHlo.reshape_writes, StableHlo.nary_writes]
  repeat (first | exact single_sub_of_mem (by decide) | refine ⟨single_sub_of_mem (by decide), ?_⟩)

end Cert.ReferenceIdeal.Chunks

end
-- ==== Proof.RefRun.lean ====
/- The reference's run, read back stretch by stretch: every weakly fair execution of its ninety host operations
   terminates with the result buffer at the last stage's function of the arguments, and the arguments unchanged. -/
import proofs.«404033_j12610023981467_1_alg».proof.Proof.RefChunkA
import proofs.«404033_j12610023981467_1_alg».proof.Proof.RefChunkB

set_option maxRecDepth 8192

noncomputable section

namespace Cert.ReferenceIdeal.RunHand

open Cert.ReferenceIdeal Cert.ReferenceIdeal.Gen Cert.ReferenceIdeal.ReadP Cert.ReferenceIdeal.Chunks Cert.ReferenceIdeal.ValueP
open Idealize.ShloMosaic Idealize.ShloMosaic.TcCoe Idealize.SL.Sem Idealize.ShloMosaic.StableHlo

variable {F : FTy → Type} [FloatOps F] (V : Valuation τ sig (Elt F))

/-! A buffer none of the first n stretches writes keeps its contents through them. -/
theorem keep1 (r : Ref sig .tc) (h1 : r ∉ W1) :
    (StableHlo.after C1 V) (Proc.devRef .tc r) = V (Proc.devRef .tc r) :=
  C1_keep V r h1
theorem keep2 (r : Ref sig .tc) (h1 : r ∉ W1) (h2 : r ∉ W2) :
    (StableHlo.after C2 (StableHlo.after C1 V)) (Proc.devRef .tc r) = V (Proc.devRef .tc r) :=
  (C2_keep _ r h2).trans (keep1 V r h1)
theorem keep3 (r : Ref sig .tc) (h1 : r ∉ W1) (h2 : r ∉ W2) (h3 : r ∉ W3) :
    (StableHlo.after C3 (StableHlo.after C2 (StableHlo.after C1 V))) (Proc.devRef .tc r) = V (Proc.devRef .tc r) :=
  (C3_keep _ r h3).trans (keep2 V r h1 h2)
theorem keep4 (r : Ref sig .tc) (h1 : r ∉ W1) (h2 : r ∉ W2) (h3 : r ∉ W3) (h4 : r ∉ W4) :
    (StableHlo.after C4 (StableHlo.after C3 (StableHlo.after C2 (StableHlo.after C1 V)))) (Proc.devRef .tc r) = V (Proc.devRef .tc r) :=
  (C4_keep _ r h4).trans (keep3 V r h1 h2 h3)
theorem keep5 (r : Ref sig .tc) (h1 : r ∉ W1) (h2 : r ∉ W2) (h3 : r ∉ W3) (h4 : r ∉ W4) (h5 : r ∉ W5) :
    (StableHlo.after C5 (StableHlo.after C4 (StableHlo.after C3 (StableHlo.after C2 (StableHlo.after C1 V))))) (Proc.devRef .tc r) = V (Proc.devRef .tc r) :=
  (C5_keep _ r h5).trans (keep4 V r h1 h2 h3 h4)
theorem keep6 (r : Ref sig .tc) (h1 : r ∉ W1) (h2 : r ∉ W2) (h3 : r ∉ W3) (h4 : r ∉ W4) (h5 : r ∉ W5) (h6 : r ∉ W6) :
    (StableHlo.after C6 (StableHlo.after C5 (StableHlo.after C4 (StableHlo.after C3 (StableHlo.after C2 (StableHlo.after C1 V)))))) (Proc.devRef .tc r) = V (Proc.devRef .tc r) :=
  (C6_keep _ r h6).trans (keep5 V r h1 h2 h3 h4 h5)
theorem keep7 (r : Ref sig .tc) (h1 : r ∉ W1) (h2 : r ∉ W2) (h3 : r ∉ W3) (h4 : r ∉ W4) (h5 : r ∉ W5) (h6 : r ∉ W6) (h7 : r ∉ W7) :
    (StableHlo.after C7 (StableHlo.after C6 (StableHlo.after C5 (StableHlo.after C4 (StableHlo.after C3 (StableHlo.after C2 (StableHlo.after C1 V))))))) (Proc.devRef .tc r) = V (Proc.devRef .tc r) :=
  (C7_keep _ r h7).trans (keep6 V r h1 h2 h3 h4 h5 h6)

/-- The result buffer after the whole line is the last stage's function of the argument buffers' contents. -/
theorem result_after :
    StableHlo.after (ops (F := F)) V (Proc.devRef .tc main_v58)
      = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops]
  have h1 : (StableHlo.after C1 V) (Proc.devRef .tc main_v1) = val_main_v1 (F := F) (V (Proc.devRef .tc main_arg1)) := C1_v1 V
  have h10 := C1_v10 V
  have h17 := C1_v17 V
  have h23 := C2_v23 (StableHlo.after C1 V) _ _ h10 h17
  rw [keep1 V main_arg2 (by decide), keep1 V main_arg5 (by decide), keep1 V main_arg6 (by decide)] at h23
  have h28 := C3_v28 (StableHlo.after C2 (StableHlo.after C1 V)) _ _ _ _ _ h23
  rw [keep2 V main_arg7 (by decide) (by decide), keep2 V main_arg8 (by decide) (by decide)] at h28
  have h42 := C4_v42 (StableHlo.after C3 (StableHlo.after C2 (StableHlo.after C1 V))) _ _ _ _ _ _ _ h28
  rw [keep3 V main_arg4 (by decide) (by decide) (by decide), keep3 V main_arg9 (by decide) (by decide) (by decide),
    keep3 V main_arg10 (by decide) (by decide) (by decide)] at h42
  have h1' : (StableHlo.after C4 (StableHlo.after C3 (StableHlo.after C2 (StableHlo.after C1 V)))) (Proc.devRef .tc main_v1) = val_main_v1 (F := F) (V (Proc.devRef .tc main_arg1)) :=
    ((C4_keep _ main_v1 (by decide)).trans ((C3_keep _ main_v1 (by decide)).trans (C2_keep _ main_v1 (by decide)))).trans h1
  have h46 := C5_v46 (StableHlo.after C4 (StableHlo.after C3 (StableHlo.after C2 (StableHlo.after C1 V)))) _ _ _ _ _ _ _ _ _ _ (keep4 V main_arg0 (by decide) (by decide) (by decide) (by decide)) h1' h42
  have h51 := C6_v51 (StableHlo.after C5 (StableHlo.after C4 (StableHlo.after C3 (StableHlo.after C2 (StableHlo.after C1 V))))) _ _ _ _ _ _ _ _ _ _ h46
  rw [keep5 V main_arg11 (by decide) (by decide) (by decide) (by decide) (by decide),
    keep5 V main_arg12 (by decide) (by decide) (by decide) (by decide) (by decide)] at h51
  have h58 := C7_v58 (StableHlo.after C6 (StableHlo.after C5 (StableHlo.after C4 (StableHlo.after C3 (StableHlo.after C2 (StableHlo.after C1 V)))))) _ _ _ _ _ _ _ _ _ _ _ _
    (keep6 V main_arg0 (by decide) (by decide) (by decide) (by decide) (by decide) (by decide)) h51
  rw [keep6 V main_arg3 (by decide) (by decide) (by decide) (by decide) (by decide) (by decide),
    keep6 V main_arg13 (by decide) (by decide) (by decide) (by decide) (by decide) (by decide),
    keep6 V main_arg14 (by decide) (by decide) (by decide) (by decide) (by decide) (by decide)] at h58
  exact h58

/-- An argument buffer after the whole line holds what it held. -/
theorem arg_after (r : Ref sig .tc) (h1 : r ∉ W1) (h2 : r ∉ W2) (h3 : r ∉ W3) (h4 : r ∉ W4) (h5 : r ∉ W5) (h6 : r ∉ W6) (h7 : r ∉ W7) :
    StableHlo.after (ops (F := F)) V (Proc.devRef .tc r) = V (Proc.devRef .tc r) := by
  rw [after_ops]
  exact keep7 V r h1 h2 h3 h4 h5 h6 h7

/-- On every device, from any memory with zero counters: every weakly fair execution of the reference terminates with the
    result at the last stage's function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v58).trans (result_after _),
      (h c main_arg0).trans (arg_after _ main_arg0 (by decide) (by decide) (by decide) (by decide) (by decide) (by decide) (by decide)),
      (h c main_arg1).trans (arg_after _ main_arg1 (by decide) (by decide) (by decide) (by decide) (by decide) (by decide) (by decide)),
      (h c main_arg2).trans (arg_after _ main_arg2 (by decide) (by decide) (by decide) (by decide) (by decide) (by decide) (by decide)),
      (h c main_arg3).trans (arg_after _ main_arg3 (by decide) (by decide) (by decide) (by decide) (by decide) (by decide) (by decide)),
      (h c main_arg4).trans (arg_after _ main_arg4 (by decide) (by decide) (by decide) (by decide) (by decide) (by decide) (by decide)),
      (h c main_arg5).trans (arg_after _ main_arg5 (by decide) (by decide) (by decide) (by decide) (by decide) (by decide) (by decide)),
      (h c main_arg6).trans (arg_after _ main_arg6 (by decide) (by decide) (by decide) (by decide) (by decide) (by decide) (by decide)),
      (h c main_arg7).trans (arg_after _ main_arg7 (by decide) (by decide) (by decide) (by decide) (by decide) (by decide) (by decide)),
      (h c main_arg8).trans (arg_after _ main_arg8 (by decide) (by decide) (by decide) (by decide) (by decide) (by decide) (by decide)),
      (h c main_arg9).trans (arg_after _ main_arg9 (by decide) (by decide) (by decide) (by decide) (by decide) (by decide) (by decide)),
      (h c main_arg10).trans (arg_after _ main_arg10 (by decide) (by decide) (by decide) (by decide) (by decide) (by decide) (by decide)),
      (h c main_arg11).trans (arg_after _ main_arg11 (by decide) (by decide) (by decide) (by decide) (by decide) (by decide) (by decide)),
      (h c main_arg12).trans (arg_after _ main_arg12 (by decide) (by decide) (by decide) (by decide) (by decide) (by decide) (by decide)),
      (h c main_arg13).trans (arg_after _ main_arg13 (by decide) (by decide) (by decide) (by decide) (by decide) (by decide) (by decide)),
      (h c main_arg14).trans (arg_after _ main_arg14 (by decide) (by decide) (by decide) (by decide) (by decide) (by decide) (by decide))⟩)
    (run_seq scopedRefs_eq scopedSems_eq defs main (fun _ => ops) main_eq (fun _ => ops_sub) m ρ)

end Cert.ReferenceIdeal.RunHand

end
-- ==== Proof.Spec.lean ====
/- The message-passing layer as mathematics, one graph row at a time, on the extended reals.

   An edge e with endpoint rows x = h[row e], y = h[col e], attributes a and mask value mk sends the message
     m_e = u₂ · σ(u₂ · w_a + b_a) · mk,   u₂ = silu (u₁ · W₂ + b₂),   u₁ = silu ([x, y, a] · W₁ + b₁),
   where silu t = t · σ(t) and σ is the logistic function. A node with feature row x, aggregated message row g and
   flag fl is updated to (x + (silu ([x, g] · V₁ + c₁) · V₂ + c₂)) · fl. Every product with a weight matrix is a plain
   finite sum over the contracted coordinate; nothing here depends on how rows are grouped into blocks. -/
import Idealize.ShloMosaic.PureOps.Ideal
import Idealize.ShloMosaic.Lib.ValueIdx

noncomputable section

namespace Cert.Spec

open Idealize.ShloMosaic Idealize.ShloMosaic.ValueIdx
open scoped BigOperators

/-- t ↦ t · σ(t). -/
def silu (t : EReal) : EReal := t * Ideal.logistic t

/-- The weights of the edge network: two dense layers and the attention vector, each with its bias. -/
structure EdgeW where
  W1 : Fin 272 → Fin 128 → EReal
  b1 : Fin 128 → EReal
  W2 : Fin 128 → Fin 128 → EReal
  b2 : Fin 128 → EReal
  Wa : Fin 128 → EReal
  ba : EReal

/-- The weights of the node network: two dense layers with their biases. -/
structure NodeW where
  W1 : Fin 256 → Fin 128 → EReal
  b1 : Fin 128 → EReal
  W2 : Fin 128 → Fin 128 → EReal
  b2 : Fin 128 → EReal

/-- The concatenated row [x, y, a] of widths 128 + 128 + 16. -/
def cat3 (x y : Fin 128 → EReal) (a : Fin 16 → EReal) (k : Fin 272) : EReal :=
  if h : k.val < 128 then x ⟨k.val, h⟩
  else if h2 : k.val < 256 then y ⟨k.val - 128, by omega⟩
  else a ⟨k.val - 256, by omega⟩

/-- The concatenated row [x, g] of widths 128 + 128. -/
def cat2 (x g : Fin 128 → EReal) (k : Fin 256) : EReal :=
  if h : k.val < 128 then x ⟨k.val, h⟩ else g ⟨k.val - 128, by omega⟩

/-- The first hidden layer of the edge network at one edge. -/
def edgeHid1 (x y : Fin 128 → EReal) (a : Fin 16 → EReal) (w : EdgeW) (j : Fin 128) : EReal :=
  silu ((∑ k : Fin 272, cat3 x y a k * w.W1 k j) + w.b1 j)

/-- The second hidden layer of the edge network at one edge. -/
def edgeHid2 (x y : Fin 128 → EReal) (a : Fin 16 → EReal) (w : EdgeW) (j : Fin 128) : EReal :=
  silu ((∑ k : Fin 128, edgeHid1 x y a w k * w.W2 k j) + w.b2 j)

/-- The attention gate of one edge. -/
def edgeGate (x y : Fin 128 → EReal) (a : Fin 16 → EReal) (w : EdgeW) : EReal :=
  Ideal.logistic ((∑ k : Fin 128, edgeHid2 x y a w k * w.Wa k) + w.ba)

/-- The message of one edge, coordinate j. -/
def edgeRow (x y : Fin 128 → EReal) (a : Fin 16 → EReal) (mk : EReal) (w : EdgeW) (j : Fin 128) : EReal :=
  edgeHid2 x y a w j * edgeGate x y a w * mk

/-- The hidden layer of the node network at one node. -/
def nodeHid (x g : Fin 128 → EReal) (w : NodeW) (j : Fin 128) : EReal :=
  silu ((∑ k : Fin 256, cat2 x g k * w.W1 k j) + w.b1 j)

/-- The updated feature of one node, coordinate j. -/
def nodeRow (x g : Fin 128 → EReal) (fl : EReal) (w : NodeW) (j : Fin 128) : EReal :=
  (x j + ((∑ k : Fin 128, nodeHid x g w k * w.W2 k j) + w.b2 j)) * fl

/-! ## Whole arrays, row by row -/

/-- An n × k array of extended reals. -/
abbrev Arr (n k : Nat) : Type := (⟨2, ![n, k]⟩ : Shape).Idx → EReal

/-- The row coordinate of an index. -/
def r0 {n k : Nat} (i : (⟨2, ![n, k]⟩ : Shape).Idx) : Fin n := ⟨(i 0).val, idx2_lt0 i⟩
/-- The column coordinate of an index. -/
def c1 {n k : Nat} (i : (⟨2, ![n, k]⟩ : Shape).Idx) : Fin k := ⟨(i 1).val, idx2_lt1 i⟩
@[simp] theorem r0_ix2 {n k : Nat} (p : Fin n) (q : Fin k) : r0 (ix2 p q) = p := rfl
@[simp] theorem c1_ix2 {n k : Nat} (p : Fin n) (q : Fin k) : c1 (ix2 p q) = q := rfl

/-- Row r of an array. -/
def rowOf {n k : Nat} (X : Arr n k) (r : Fin n) : Fin k → EReal := fun q => X (ix2 r q)

/-- All messages: row e is the message of edge e. -/
def edgeMsg {n : Nat} (hr hc : Arr n 128) (ea : Arr n 16) (em : Arr n 1) (w : EdgeW) : Arr n 128 :=
  fun i => edgeRow (rowOf hr (r0 i)) (rowOf hc (r0 i)) (rowOf ea (r0 i)) (em (ix2 (r0 i) 0)) w (c1 i)

/-- All updated node features: row v is the update of node v. -/
def nodeOut {n : Nat} (h g : Arr n 128) (fl : Arr n 1) (w : NodeW) : Arr n 128 :=
  fun i => nodeRow (rowOf h (r0 i)) (rowOf g (r0 i)) (fl (ix2 (r0 i) 0)) w (c1 i)

theorem edgeMsg_apply {n : Nat} (hr hc : Arr n 128) (ea : Arr n 16) (em : Arr n 1) (w : EdgeW) (p : Fin n) (q : Fin 128) :
    edgeMsg hr hc ea em w (ix2 p q) = edgeRow (rowOf hr p) (rowOf hc p) (rowOf ea p) (em (ix2 p 0)) w q := rfl

theorem nodeOut_apply {n : Nat} (h g : Arr n 128) (fl : Arr n 1) (w : NodeW) (p : Fin n) (q : Fin 128) :
    nodeOut h g fl w (ix2 p q) = nodeRow (rowOf h p) (rowOf g p) (fl (ix2 p 0)) w q := rfl

/-- A length-n vector of extended reals. -/
abbrev Arr1 (n : Nat) : Type := (⟨1, ![n]⟩ : Shape).Idx → EReal

/-- The edge network's weights read from arrays whose biases are vectors. -/
def edgeW1 (W1 : Arr 272 128) (b1 : Arr1 128) (W2 : Arr 128 128) (b2 : Arr1 128) (Wa : Arr 128 1) (ba : Arr1 1) : EdgeW :=
  ⟨fun k j => W1 (ix2 k j), fun j => b1 (ix1 j), fun k j => W2 (ix2 k j), fun j => b2 (ix1 j), fun k => Wa (ix2 k 0), ba (ix1 0)⟩

/-- The edge network's weights read from arrays whose biases are one-row matrices. -/
def edgeW2 (W1 : Arr 272 128) (b1 : Arr 1 128) (W2 : Arr 128 128) (b2 : Arr 1 128) (Wa : Arr 128 1) (ba : Arr 1 1) : EdgeW :=
  ⟨fun k j => W1 (ix2 k j), fun j => b1 (ix2 0 j), fun k j => W2 (ix2 k j), fun j => b2 (ix2 0 j), fun k => Wa (ix2 k 0), ba (ix2 0 0)⟩

/-- The node network's weights read from arrays whose biases are vectors. -/
def nodeW1 (W1 : Arr 256 128) (b1 : Arr1 128) (W2 : Arr 128 128) (b2 : Arr1 128) : NodeW :=
  ⟨fun k j => W1 (ix2 k j), fun j => b1 (ix1 j), fun k j => W2 (ix2 k j), fun j => b2 (ix1 j)⟩

/-- The node network's weights read from arrays whose biases are one-row matrices. -/
def nodeW2 (W1 : Arr 256 128) (b1 : Arr 1 128) (W2 : Arr 128 128) (b2 : Arr 1 128) : NodeW :=
  ⟨fun k j => W1 (ix2 k j), fun j => b1 (ix2 0 j), fun k j => W2 (ix2 k j), fun j => b2 (ix2 0 j)⟩

/-- The layer's result from the two gathered endpoint arrays and an aggregation of the messages into node rows. -/
def layer (agg : Arr 640000 128 → Arr 20000 128) (h : Arr 20000 128) (hr hc : Arr 640000 128) (ea : Arr 640000 16)
    (fl : Arr 20000 1) (em : Arr 640000 1) (we : EdgeW) (wn : NodeW) : Arr 20000 128 :=
  nodeOut h (agg (edgeMsg hr hc ea em we)) fl wn

end Cert.Spec

end
-- ==== Proof.Payload0.lean ====
import proofs.«404033_j12610023981467_1_alg».proof.Proof.Gen.KernelIdeal.Frame
import proofs.«404033_j12610023981467_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx
open Idealize.ShloMosaic.Pipeline (Dat Cfg Window)
open scoped BigOperators

/-! The edge kernel computes, for every row p of its 8000-row input blocks, the concatenated row [x, y, a] of width
    272, two dense layers each followed by t ↦ t · σ(t), a gate σ(u₂ · w_a + b_a), and the product u₂ · gate · mask.
    Each matrix product accumulates into zero, so at an entry it is the plain sum over the contracted coordinate; a
    change of number format does nothing to an extended real; a one-row bias, a one-column gate or mask and a single
    scalar bias are spread over the block and read back at their own row, column or entry. Read at (p, j) the result is
    therefore the specification's message of the edge in row p, coordinate j. -/

/-- The offset pair (0, 0) is the zero offset. -/
theorem hz : (![0, 0] : Fin 2 → Nat) = fun _ => 0 :=
  funext fun a => by match a with | ⟨0, _⟩ => rfl | ⟨1, _⟩ => rfl

/-- Three blocks of widths 128, 128 and 16 laid side by side, read at row p and column k: the concatenated row. -/
theorem cat_apply {φ : FTy} (a b : FVec Ideal S8000x128 φ) (c : FVec Ideal S8000x16 φ)
    (h : Shape.Concatenates [S8000x128, S8000x128, S8000x16] S8000x272 1) (p : Fin 8000) (k : Fin 272) :
    concatenate S8000x272 1 [⟨S8000x128, a⟩, ⟨S8000x128, b⟩, ⟨S8000x16, c⟩] h (ix2 p k)
      = Spec.cat3 (fun q => a (ix2 p q)) (fun q => b (ix2 p q)) (fun q => c (ix2 p q)) k := by
  unfold Spec.cat3
  by_cases h1 : k.val < 128
  · rw [dif_pos h1]
    refine concatenate_apply_piece (t := S8000x272) (1 : Fin 2) [⟨S8000x128, a⟩, ⟨S8000x128, b⟩, ⟨S8000x16, c⟩] h (ix2 p k)
      0 (Nat.zero_lt_succ _) S8000x128 a rfl rfl 0 rfl (ix2 p ⟨k.val, h1⟩) (fun d hd => ?_) ?_
    · match d with
      | ⟨0, _⟩ => rfl
      | ⟨1, _⟩ => exact absurd rfl hd
    · show 0 + k.val = k.val
      omega
  · rw [dif_neg h1]
    by_cases h2 : k.val < 256
    · rw [dif_pos h2]
      refine concatenate_apply_piece (t := S8000x272) (1 : Fin 2) [⟨S8000x128, a⟩, ⟨S8000x128, b⟩, ⟨S8000x16, c⟩] h (ix2 p k)
        1 (Nat.succ_lt_succ (Nat.zero_lt_succ _)) S8000x128 b rfl rfl 128 rfl (ix2 p ⟨k.val - 128, by omega⟩) (fun d hd => ?_) ?_
      · match d with
        | ⟨0, _⟩ => rfl
        | ⟨1, _⟩ => exact absurd rfl hd
      · show 128 + (k.val - 128) = k.val
        omega
    · rw [dif_neg h2]
      have hk : k.val < 272 := k.isLt
      refine concatenate_apply_piece (t := S8000x272) (1 : Fin 2) [⟨S8000x128, a⟩, ⟨S8000x128, b⟩, ⟨S8000x16, c⟩] h (ix2 p k)
        2 (Nat.succ_lt_succ (Nat.succ_lt_succ (Nat.zero_lt_succ _))) S8000x16 c rfl rfl 256 rfl (ix2 p ⟨k.val - 256, by omega⟩) (fun d hd => ?_) ?_
      · match d with
        | ⟨0, _⟩ => rfl
        | ⟨1, _⟩ => exact absurd rfl hd
      · show 256 + (k.val - 256) = k.val
        omega

/-! ## The three matrix products at an entry

    For a product of an 8000 × K block with a K × n block the left factor is read at (row, k) and the right factor at
    (k, column): the four coordinate facts below say so, and the one-axis contraction index is the coordinate k. -/

theorem mm1_lhs0 (i : S8000x128.Idx) (q : dot_S8000x272_S272x128_S8000x128_1_0_0_1_n_n.contr.Idx) :
    (dot_S8000x272_S272x128_S8000x128_1_0_0_1_n_n.lhsIdx i q 0).val = (i 0).val := by
  unfold DotDims.lhsIdx
  rw [dif_neg (show ¬(0 : Fin S8000x272.rank) ∈ dot_S8000x272_S272x128_S8000x128_1_0_0_1_n_n.lhsBatch by decide), dif_pos (show (0 : Fin S8000x272.rank) ∈ dot_S8000x272_S272x128_S8000x128_1_0_0_1_n_n.lhsNonContracting by decide)]
  rfl
theorem mm1_lhs1 (i : S8000x128.Idx) (q : dot_S8000x272_S272x128_S8000x128_1_0_0_1_n_n.contr.Idx) :
    (dot_S8000x272_S272x128_S8000x128_1_0_0_1_n_n.lhsIdx i q 1).val = (q ⟨0, by decide⟩).val :=
  dot_S8000x272_S272x128_S8000x128_1_0_0_1_n_n.lhsIdx_val_of_single rfl i q
theorem mm1_rhs0 (i : S8000x128.Idx) (q : dot_S8000x272_S272x128_S8000x128_1_0_0_1_n_n.contr.Idx) :
    (dot_S8000x272_S272x128_S8000x128_1_0_0_1_n_n.rhsIdx i q 0).val = (q ⟨0, by decide⟩).val :=
  dot_S8000x272_S272x128_S8000x128_1_0_0_1_n_n.rhsIdx_val_of_single rfl i q
theorem mm1_rhs1 (i : S8000x128.Idx) (q : dot_S8000x272_S272x128_S8000x128_1_0_0_1_n_n.contr.Idx) :
    (dot_S8000x272_S272x128_S8000x128_1_0_0_1_n_n.rhsIdx i q 1).val = (i 1).val := by
  unfold DotDims.rhsIdx
  rw [dif_neg (show ¬(1 : Fin S272x128.rank) ∈ dot_S8000x272_S272x128_S8000x128_1_0_0_1_n_n.rhsBatch by decide), dif_pos (show (1 : Fin S272x128.rank) ∈ dot_S8000x272_S272x128_S8000x128_1_0_0_1_n_n.rhsNonContracting by decide)]
  rfl
/-- The product into a zero accumulator, read at row p and column j: the sum over the contracted coordinate. -/
theorem mm1_apply {φ₁ φ₂ : FTy} (l : FVec Ideal S8000x272 φ₁) (r : FVec Ideal S272x128 φ₂) (p : Fin 8000) (j : Fin 128) :
    matmul dot_S8000x272_S272x128_S8000x128_1_0_0_1_n_n none l r (constant (F := Ideal) S8000x128 .f32 0x00000000#32) (ix2 p j)
      = ∑ k : Fin 272, l (ix2 p k) * r (ix2 k j) := by
  simp only [matmul]
  rw [Ideal.matmul_constant_zero_apply, ← Equiv.sum_comp (ValueIdx.contrEquiv1 dot_S8000x272_S272x128_S8000x128_1_0_0_1_n_n 272 rfl rfl).symm]
  refine Finset.sum_congr rfl fun k _ => ?_
  have hk := ValueIdx.contrEquiv1_symm_val dot_S8000x272_S272x128_S8000x128_1_0_0_1_n_n 272 rfl rfl k
  have el : dot_S8000x272_S272x128_S8000x128_1_0_0_1_n_n.lhsIdx (ix2 p j) ((ValueIdx.contrEquiv1 dot_S8000x272_S272x128_S8000x128_1_0_0_1_n_n 272 rfl rfl).symm k) = ix2 p k := funext fun a => Fin.ext (by
    match a with
    | ⟨0, _⟩ => exact mm1_lhs0 _ _
    | ⟨1, _⟩ => exact (mm1_lhs1 _ _).trans hk)
  have er : dot_S8000x272_S272x128_S8000x128_1_0_0_1_n_n.rhsIdx (ix2 p j) ((ValueIdx.contrEquiv1 dot_S8000x272_S272x128_S8000x128_1_0_0_1_n_n 272 rfl rfl).symm k) = ix2 k j := funext fun a => Fin.ext (by
    match a with
    | ⟨0, _⟩ => exact (mm1_rhs0 _ _).trans hk
    | ⟨1, _⟩ => exact mm1_rhs1 _ _)
  rw [el, er]

theorem mm2_lhs0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem mm2_lhs1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem mm2_rhs0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem mm2_rhs1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl
/-- The product into a zero accumulator, read at row p and column j: the sum over the contracted coordinate. -/
theorem mm2_apply {φ₁ φ₂ : FTy} (l : FVec Ideal S8000x128 φ₁) (r : FVec Ideal S128x128 φ₂) (p : Fin 8000) (j : Fin 128) :
    matmul dot_S8000x128_S128x128_S8000x128_1_0_0_1_n_n none l r (constant (F := Ideal) S8000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p j) ((ValueIdx.contrEquiv1 dot_S8000x128_S128x128_S8000x128_1_0_0_1_n_n 128 rfl rfl).symm k) = ix2 p k := funext fun a => Fin.ext (by
    match a with
    | ⟨0, _⟩ => exact mm2_lhs0 _ _
    | ⟨1, _⟩ => exact (mm2_lhs1 _ _).trans hk)
  have er : dot_S8000x128_S128x128_S8000x128_1_0_0_1_n_n.rhsIdx (ix2 p j) ((ValueIdx.contrEquiv1 dot_S8000x128_S128x128_S8000x128_1_0_0_1_n_n 128 rfl rfl).symm k) = ix2 k j := funext fun a => Fin.ext (by
    match a with
    | ⟨0, _⟩ => exact (mm2_rhs0 _ _).trans hk
    | ⟨1, _⟩ => exact mm2_rhs1 _ _)
  rw [el, er]

theorem mm3_lhs0 (i : S8000x1.Idx) (q : dot_S8000x128_S128x1_S8000x1_1_0_0_1_n_n.contr.Idx) :
    (dot_S8000x128_S128x1_S8000x1_1_0_0_1_n_n.lhsIdx i q 0).val = (i 0).val := by
  unfold DotDims.lhsIdx
  rw [dif_neg (show ¬(0 : Fin S8000x128.rank) ∈ dot_S8000x128_S128x1_S8000x1_1_0_0_1_n_n.lhsBatch by decide), dif_pos (show (0 : Fin S8000x128.rank) ∈ dot_S8000x128_S128x1_S8000x1_1_0_0_1_n_n.lhsNonContracting by decide)]
  rfl
theorem mm3_lhs1 (i : S8000x1.Idx) (q : dot_S8000x128_S128x1_S8000x1_1_0_0_1_n_n.contr.Idx) :
    (dot_S8000x128_S128x1_S8000x1_1_0_0_1_n_n.lhsIdx i q 1).val = (q ⟨0, by decide⟩).val :=
  dot_S8000x128_S128x1_S8000x1_1_0_0_1_n_n.lhsIdx_val_of_single rfl i q
theorem mm3_rhs0 (i : S8000x1.Idx) (q : dot_S8000x128_S128x1_S8000x1_1_0_0_1_n_n.contr.Idx) :
    (dot_S8000x128_S128x1_S8000x1_1_0_0_1_n_n.rhsIdx i q 0).val = (q ⟨0, by decide⟩).val :=
  dot_S8000x128_S128x1_S8000x1_1_0_0_1_n_n.rhsIdx_val_of_single rfl i q
theorem mm3_rhs1 (i : S8000x1.Idx) (q : dot_S8000x128_S128x1_S8000x1_1_0_0_1_n_n.contr.Idx) :
    (dot_S8000x128_S128x1_S8000x1_1_0_0_1_n_n.rhsIdx i q 1).val = (i 1).val := by
  unfold DotDims.rhsIdx
  rw [dif_neg (show ¬(1 : Fin S128x1.rank) ∈ dot_S8000x128_S128x1_S8000x1_1_0_0_1_n_n.rhsBatch by decide), dif_pos (show (1 : Fin S128x1.rank) ∈ dot_S8000x128_S128x1_S8000x1_1_0_0_1_n_n.rhsNonContracting by decide)]
  rfl
/-- The product into a zero accumulator, read at row p and column j: the sum over the contracted coordinate. -/
theorem mm3_apply {φ₁ φ₂ : FTy} (l : FVec Ideal S8000x128 φ₁) (r : FVec Ideal S128x1 φ₂) (p : Fin 8000) (j : Fin 1) :
    matmul dot_S8000x128_S128x1_S8000x1_1_0_0_1_n_n none l r (constant (F := Ideal) S8000x1 .f32 0x00000000#32) (ix2 p j)
      = ∑ k : Fin 128, l (ix2 p k) * r (ix2 k j) := by
  simp only [matmul]
  rw [Ideal.matmul_constant_zero_apply, ← Equiv.sum_comp (ValueIdx.contrEquiv1 dot_S8000x128_S128x1_S8000x1_1_0_0_1_n_n 128 rfl rfl).symm]
  refine Finset.sum_congr rfl fun k _ => ?_
  have hk := ValueIdx.contrEquiv1_symm_val dot_S8000x128_S128x1_S8000x1_1_0_0_1_n_n 128 rfl rfl k
  have el : dot_S8000x128_S128x1_S8000x1_1_0_0_1_n_n.lhsIdx (ix2 p j) ((ValueIdx.contrEquiv1 dot_S8000x128_S128x1_S8000x1_1_0_0_1_n_n 128 rfl rfl).symm k) = ix2 p k := funext fun a => Fin.ext (by
    match a with
    | ⟨0, _⟩ => exact mm3_lhs0 _ _
    | ⟨1, _⟩ => exact (mm3_lhs1 _ _).trans hk)
  have er : dot_S8000x128_S128x1_S8000x1_1_0_0_1_n_n.rhsIdx (ix2 p j) ((ValueIdx.contrEquiv1 dot_S8000x128_S128x1_S8000x1_1_0_0_1_n_n 128 rfl rfl).symm k) = ix2 k j := funext fun a => Fin.ext (by
    match a with
    | ⟨0, _⟩ => exact (mm3_rhs0 _ _).trans hk
    | ⟨1, _⟩ => exact mm3_rhs1 _ _)
  rw [el, er]

/-! ## Spreading a row, a column or a single entry over a block -/

/-- A one-row block spread over the 8000 rows reads its own row. -/
theorem bcast_row_apply {α : Type} (v : S1x128.Idx → α) (h : S1x128.Broadcasts S8000x128) (p : Fin 8000) (j : Fin 128) :
    broadcastTo S8000x128 v h (ix2 p j) = v (ix2 0 j) :=
  broadcastTo_apply v h (ix2 p j) (ix2 0 j) (fun a => match a with
    | ⟨0, _⟩ => by show (0 : Nat) = if (1 : Nat) = 1 then 0 else p.val; rw [if_pos rfl]
    | ⟨1, _⟩ => by show j.val = if (128 : Nat) = 1 then 0 else j.val; rw [if_neg (by decide)])

/-- A one-column block spread over the 128 columns reads its own column. -/
theorem bcast_col_apply {α : Type} (v : S8000x1.Idx → α) (h : S8000x1.Broadcasts S8000x128) (p : Fin 8000) (j : Fin 128) :
    broadcastTo S8000x128 v h (ix2 p j) = v (ix2 p 0) :=
  broadcastTo_apply v h (ix2 p j) (ix2 p 0) (fun a => match a with
    | ⟨0, _⟩ => by show p.val = if (8000 : Nat) = 1 then 0 else p.val; rw [if_neg (by decide)]
    | ⟨1, _⟩ => by show (0 : Nat) = if (1 : Nat) = 1 then 0 else j.val; rw [if_pos rfl])

/-- A single entry spread over a column of 8000 rows reads that entry. -/
theorem bcast_one_apply {α : Type} (v : S1x1.Idx → α) (h : S1x1.Broadcasts S8000x1) (p : Fin 8000) (j : Fin 1) :
    broadcastTo S8000x1 v h (ix2 p j) = v (ix2 0 0) :=
  broadcastTo_apply v h (ix2 p j) (ix2 0 0) (fun a => match a with
    | ⟨0, _⟩ => by show (0 : Nat) = if (1 : Nat) = 1 then 0 else p.val; rw [if_pos rfl]
    | ⟨1, _⟩ => by show (0 : Nat) = if (1 : Nat) = 1 then 0 else j.val; rw [if_pos rfl])

/-- The logistic function of a block, entry by entry. -/
theorem logistic_apply {s : Shape} {φ : FTy} (v : FVec Ideal s φ) (i : s.Idx) : logistic v i = Ideal.logistic (v i) := rfl

/-! ## The layers -/

/-- The second hidden block of the kernel, read at row p and column j: the second hidden layer of the edge in row p. -/
theorem pay2_apply (x0 x1 : Vec Ideal S8000x128 .f32) (x2 : Vec Ideal S8000x16 .f32)
    (x4 : Vec Ideal S272x128 .f32) (x5 : Vec Ideal S1x128 .f32) (x6 : Vec Ideal S128x128 .f32) (x7 : Vec Ideal S1x128 .f32)
    (x8 : Vec Ideal S128x1 .f32) (x9 : Vec Ideal S1x1 .f32) (p : Fin 8000) (j : Fin 128) :
    k0_pay2 (F := Ideal) x0 x1 x2 x4 x5 x6 x7 (ix2 p j)
      = Spec.edgeHid2 (Spec.rowOf x0 p) (Spec.rowOf x1 p) (Spec.rowOf x2 p) (Spec.edgeW2 x4 x5 x6 x7 x8 x9) j := by
  unfold k0_pay2
  simp only [mulf_apply, addf_apply, logistic_apply, truncf_apply, shapeCast_self, mm1_apply, mm2_apply, bcast_row_apply, cat_apply]
  rfl

/-- The gate column of the kernel, read at row p: the attention gate of the edge in row p. -/
theorem pay3_apply (x0 x1 : Vec Ideal S8000x128 .f32) (x2 : Vec Ideal S8000x16 .f32)
    (x4 : Vec Ideal S272x128 .f32) (x5 : Vec Ideal S1x128 .f32) (x6 : Vec Ideal S128x128 .f32) (x7 : Vec Ideal S1x128 .f32)
    (x8 : Vec Ideal S128x1 .f32) (x9 : Vec Ideal S1x1 .f32) (p : Fin 8000) :
    k0_pay3 (F := Ideal) x0 x1 x2 x4 x5 x6 x7 x8 x9 (ix2 p 0)
      = Spec.edgeGate (Spec.rowOf x0 p) (Spec.rowOf x1 p) (Spec.rowOf x2 p) (Spec.edgeW2 x4 x5 x6 x7 x8 x9) := by
  unfold k0_pay3
  simp only [addf_apply, logistic_apply, truncf_apply, shapeCast_self, mm3_apply, bcast_one_apply,
    pay2_apply x0 x1 x2 x4 x5 x6 x7 x8 x9]
  rfl

/-- What the edge kernel's body leaves in its output block, read at row p and column j: the message of the edge in
    row p of the input blocks. -/
theorem out0_10_apply (x0 x1 : Vec Ideal S8000x128 .f32) (x2 : Vec Ideal S8000x16 .f32) (x3 : Vec Ideal S8000x1 .f32)
    (x4 : Vec Ideal S272x128 .f32) (x5 : Vec Ideal S1x128 .f32) (x6 : Vec Ideal S128x128 .f32) (x7 : Vec Ideal S1x128 .f32)
    (x8 : Vec Ideal S128x1 .f32) (x9 : Vec Ideal S1x1 .f32) (p : Fin 8000) (j : Fin 128) :
    out0_10 (F := Ideal) x0 x1 x2 x3 x4 x5 x6 x7 x8 x9 (ix2 p j)
      = Spec.edgeRow (Spec.rowOf x0 p) (Spec.rowOf x1 p) (Spec.rowOf x2 p) (x3 (ix2 p 0)) (Spec.edgeW2 x4 x5 x6 x7 x8 x9) j := by
  unfold out0_10
  rw [View.canon_unit_zero hz]
  simp only [View.ld_unit_zero (S := S8000x128) hz, View.ld_unit_zero (S := S8000x16) hz, View.ld_unit_zero (S := S8000x1) hz,
    View.ld_unit_zero (S := S272x128) hz, View.ld_unit_zero (S := S1x128) hz, View.ld_unit_zero (S := S128x128) hz,
    View.ld_unit_zero (S := S128x1) hz, View.ld_unit_zero (S := S1x1) hz]
  unfold k0_pay1
  simp only [mulf_apply, bcast_col_apply, pay2_apply x0 x1 x2 x4 x5 x6 x7 x8 x9, pay3_apply]
  rfl

end Cert.KernelIdeal.Payload

end
-- ==== Proof.Blocks0.lean ====
/- From blocks to the array, for the edge kernel.

   The grid has 80 points. Point t reads rows 8000·t … 8000·t + 7999 of the two endpoint arrays, of the attribute array
   and of the mask array, reads the six weight arrays whole, and writes rows 8000·t … 8000·t + 7999 of the message
   array. Row p of what it writes is the message of the edge in row p of what it read, so it is row 8000·t + p of the
   specification's message array; the 80 row blocks tile the 640000 rows (row e lies in the block of point e / 8000),
   hence after the last point the whole array is the specification's. -/
import proofs.«404033_j12610023981467_1_alg».proof.Proof.Payload0

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- Where the grid's point t places each window: the four edge windows and the message window at row block t,
    the six weight windows at their one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

/-- The grid has 80 points. -/
theorem point_lt (t : Fin cfg0.N) : t.val < 80 := t.isLt

/-! ## The edge windows: block t is rows 8000·t … 8000·t + 7999 of the array -/

/-- Row p of the first endpoint window's block at point t is row 8000·t + p of its array. -/
theorem blk0_apply (c : Dev nD) (t : Fin cfg0.N) (p : Fin 8000) (k : Fin 128) (r : Fin 640000)
    (hr : r.val = 8000 * t.val + p.val) :
    (iblk0 V c 0 t : Vec Ideal S8000x128 .f32) (ix2 p k) = (V c main_v4 : Spec.Arr 640000 128) (ix2 r k) := by
  obtain ⟨⟨e0, e1⟩, -⟩ := idx_facts t
  show V c main_v4 (((cfg0.win 0).blk t).view.emb (ix2 p k)) = V c main_v4 (ix2 r k)
  refine congrArg _ ?_
  funext a; apply Fin.ext
  match a with
  | ⟨0, _⟩ => show win0_0.index t (0 : Fin 2) * 8000 + 1 * p.val = r.val; omega
  | ⟨1, _⟩ => show win0_0.index t (1 : Fin 2) * 128 + 1 * k.val = k.val; omega

/-- Row p of the second endpoint window's block at point t is row 8000·t + p of its array. -/
theorem blk1_apply (c : Dev nD) (t : Fin cfg0.N) (p : Fin 8000) (k : Fin 128) (r : Fin 640000)
    (hr : r.val = 8000 * t.val + p.val) :
    (iblk0 V c 1 t : Vec Ideal S8000x128 .f32) (ix2 p k) = (V c main_v5 : Spec.Arr 640000 128) (ix2 r k) := by
  obtain ⟨-, ⟨e0, e1⟩, -⟩ := idx_facts t
  show V c main_v5 (((cfg0.win 1).blk t).view.emb (ix2 p k)) = V c main_v5 (ix2 r k)
  refine congrArg _ ?_
  funext a; apply Fin.ext
  match a with
  | ⟨0, _⟩ => show win0_1.index t (0 : Fin 2) * 8000 + 1 * p.val = r.val; omega
  | ⟨1, _⟩ => show win0_1.index t (1 : Fin 2) * 128 + 1 * k.val = k.val; omega

/-- Row p of the attribute window's block at point t is row 8000·t + p of its array. -/
theorem blk2_apply (c : Dev nD) (t : Fin cfg0.N) (p : Fin 8000) (k : Fin 16) (r : Fin 640000)
    (hr : r.val = 8000 * t.val + p.val) :
    (iblk0 V c 2 t : Vec Ideal S8000x16 .f32) (ix2 p k) = (V c main_arg2 : Spec.Arr 640000 16) (ix2 r k) := by
  obtain ⟨-, -, ⟨e0, e1⟩, -⟩ := idx_facts t
  show V c main_arg2 (((cfg0.win 2).blk t).view.emb (ix2 p k)) = V c main_arg2 (ix2 r k)
  refine congrArg _ ?_
  funext a; apply Fin.ext
  match a with
  | ⟨0, _⟩ => show win0_2.index t (0 : Fin 2) * 8000 + 1 * p.val = r.val; omega
  | ⟨1, _⟩ => show win0_2.index t (1 : Fin 2) * 16 + 1 * k.val = k.val; omega

/-- Row p of the mask window's block at point t is row 8000·t + p of its array. -/
theorem blk3_apply (c : Dev nD) (t : Fin cfg0.N) (p : Fin 8000) (k : Fin 1) (r : Fin 640000)
    (hr : r.val = 8000 * t.val + p.val) :
    (iblk0 V c 3 t : Vec Ideal S8000x1 .f32) (ix2 p k) = (V c main_arg4 : Spec.Arr 640000 1) (ix2 r k) := by
  obtain ⟨-, -, -, ⟨e0, e1⟩, -⟩ := idx_facts t
  show V c main_arg4 (((cfg0.win 3).blk t).view.emb (ix2 p k)) = V c main_arg4 (ix2 r k)
  refine congrArg _ ?_
  funext a; apply Fin.ext
  match a with
  | ⟨0, _⟩ => show win0_3.index t (0 : Fin 2) * 8000 + 1 * p.val = r.val; omega
  | ⟨1, _⟩ => show win0_3.index t (1 : Fin 2) * 1 + 1 * k.val = k.val; omega

/-! ## The weight windows: every point's block is the whole array -/

/-- The first layer's matrix's block at any point is the whole of its array. -/
theorem blk4_apply (c : Dev nD) (t : Fin cfg0.N) (y : S272x128.Idx) :
    (iblk0 V c 4 t : Vec Ideal S272x128 .f32) y = (V c main_arg5 : Spec.Arr 272 128) y := by
  obtain ⟨-, -, -, -, ⟨e0, e1⟩, -⟩ := idx_facts t
  show V c main_arg5 (((cfg0.win 4).blk t).view.emb y) = V c main_arg5 y
  refine congrArg _ ?_
  funext a; apply Fin.ext
  match a with
  | ⟨0, _⟩ => show win0_4.index t (0 : Fin 2) * 272 + 1 * (y 0).val = (y 0).val; omega
  | ⟨1, _⟩ => show win0_4.index t (1 : Fin 2) * 128 + 1 * (y 1).val = (y 1).val; omega

theorem blk4_eq (c : Dev nD) (t : Fin cfg0.N) :
    (iblk0 V c 4 t : Vec Ideal S272x128 .f32) = (V c main_arg5 : Spec.Arr 272 128) :=
  funext fun y => blk4_apply V c t y

/-- The first layer's bias's block at any point is the whole of its array. -/
theorem blk5_apply (c : Dev nD) (t : Fin cfg0.N) (y : S1x128.Idx) :
    (iblk0 V c 5 t : Vec Ideal S1x128 .f32) y = (V c main_v6 : Spec.Arr 1 128) y := by
  obtain ⟨-, -, -, -, -, ⟨e0, e1⟩, -⟩ := idx_facts t
  show V c main_v6 (((cfg0.win 5).blk t).view.emb y) = V c main_v6 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blk5_eq (c : Dev nD) (t : Fin cfg0.N) :
    (iblk0 V c 5 t : Vec Ideal S1x128 .f32) = (V c main_v6 : Spec.Arr 1 128) :=
  funext fun y => blk5_apply V c t y

/-- The second layer's matrix's block at any point is the whole of its array. -/
theorem blk6_apply (c : Dev nD) (t : Fin cfg0.N) (y : S128x128.Idx) :
    (iblk0 V c 6 t : Vec Ideal S128x128 .f32) y = (V c main_arg7 : Spec.Arr 128 128) y := by
  obtain ⟨-, -, -, -, -, -, ⟨e0, e1⟩, -⟩ := idx_facts t
  show V c main_arg7 (((cfg0.win 6).blk t).view.emb y) = V c main_arg7 y
  refine congrArg _ ?_
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem blk6_eq (c : Dev nD) (t : Fin cfg0.N) :
    (iblk0 V c 6 t : Vec Ideal S128x128 .f32) = (V c main_arg7 : Spec.Arr 128 128) :=
  funext fun y => blk6_apply V c t y

/-- The second layer's bias's block at any point is the whole of its array. -/
theorem blk7_apply (c : Dev nD) (t : Fin cfg0.N) (y : S1x128.Idx) :
    (iblk0 V c 7 t : Vec Ideal S1x128 .f32) y = (V c main_v7 : Spec.Arr 1 128) y := by
  obtain ⟨-, -, -, -, -, -, -, ⟨e0, e1⟩, -⟩ := idx_facts t
  show V c main_v7 (((cfg0.win 7).blk t).view.emb y) = V c main_v7 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk7_eq (c : Dev nD) (t : Fin cfg0.N) :
    (iblk0 V c 7 t : Vec Ideal S1x128 .f32) = (V c main_v7 : Spec.Arr 1 128) :=
  funext fun y => blk7_apply V c t y

/-- The attention vector's block at any point is the whole of its array. -/
theorem blk8_apply (c : Dev nD) (t : Fin cfg0.N) (y : S128x1.Idx) :
    (iblk0 V c 8 t : Vec Ideal S128x1 .f32) y = (V c main_arg9 : Spec.Arr 128 1) y := by
  obtain ⟨-, -, -, -, -, -, -, -, ⟨e0, e1⟩, -⟩ := idx_facts t
  show V c main_arg9 (((cfg0.win 8).blk t).view.emb y) = V c main_arg9 y
  refine congrArg _ ?_
  funext a; apply Fin.ext
  match a with
  | ⟨0, _⟩ => show win0_8.index t (0 : Fin 2) * 128 + 1 * (y 0).val = (y 0).val; omega
  | ⟨1, _⟩ => show win0_8.index t (1 : Fin 2) * 1 + 1 * (y 1).val = (y 1).val; omega

theorem blk8_eq (c : Dev nD) (t : Fin cfg0.N) :
    (iblk0 V c 8 t : Vec Ideal S128x1 .f32) = (V c main_arg9 : Spec.Arr 128 1) :=
  funext fun y => blk8_apply V c t y

/-- The attention bias's block at any point is the whole of its array. -/
theorem blk9_apply (c : Dev nD) (t : Fin cfg0.N) (y : S1x1.Idx) :
    (iblk0 V c 9 t : Vec Ideal S1x1 .f32) y = (V c main_v8 : Spec.Arr 1 1) y := by
  obtain ⟨-, -, -, -, -, -, -, -, -, ⟨e0, e1⟩, -⟩ := idx_facts t
  show V c main_v8 (((cfg0.win 9).blk t).view.emb y) = V c main_v8 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

theorem blk9_eq (c : Dev nD) (t : Fin cfg0.N) :
    (iblk0 V c 9 t : Vec Ideal S1x1 .f32) = (V c main_v8 : Spec.Arr 1 1) :=
  funext fun y => blk9_apply V c t y

/-! ## The message window: what point t writes back is block t of the message array -/

/-- The whole message array of the specification, from the arrays the region is entered with. -/
abbrev msgArr (c : Dev nD) : Spec.Arr 640000 128 :=
  Spec.edgeMsg (V c main_v4) (V c main_v5) (V c main_arg2) (V c main_arg4)
    (Spec.edgeW2 (V c main_arg5) (V c main_v6) (V c main_arg7) (V c main_v7) (V c main_arg9) (V c main_v8))

/-- The message of an edge depends on its rows and on the weights only. -/
theorem edgeRow_congr {x x' y y' : Fin 128 → EReal} {a a' : Fin 16 → EReal} {mk mk' : EReal} {w w' : Spec.EdgeW}
    (j : Fin 128) (hx : x = x') (hy : y = y') (ha : a = a') (hm : mk = mk') (hw : w = w') :
    Spec.edgeRow x y a mk w j = Spec.edgeRow x' y' a' mk' w' j := by
  subst hx hy ha hm hw; rfl

theorem edgeW2_congr {A A' : Spec.Arr 272 128} {b b' : Spec.Arr 1 128} {B B' : Spec.Arr 128 128} {d d' : Spec.Arr 1 128}
    {C C' : Spec.Arr 128 1} {g g' : Spec.Arr 1 1} (hA : A = A') (hb : b = b') (hB : B = B') (hd : d = d') (hC : C = C')
    (hg : g = g') : Spec.edgeW2 A b B d C g = Spec.edgeW2 A' b' B' d' C' g' := by
  subst hA hb hB hd hC hg; rfl

/-- Row p of the block the body leaves at point t is the message of edge 8000·t + p. -/
theorem msg_block (c : Dev nD) (t : Fin cfg0.N) (p : Fin 8000) (j : Fin 128) (r : Fin 640000)
    (hr : r.val = 8000 * t.val + p.val) :
    out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 p j) = msgArr V c (ix2 r j) := by
  refine (Payload.out0_10_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p j).trans ?_
  refine Eq.trans ?_ (Spec.edgeMsg_apply (V c main_v4) (V c main_v5) (V c main_arg2) (V c main_arg4)
    (Spec.edgeW2 (V c main_arg5) (V c main_v6) (V c main_arg7) (V c main_v7) (V c main_arg9) (V c main_v8)) r j).symm
  exact edgeRow_congr j
    (funext fun k => blk0_apply V c t p k r hr)
    (funext fun k => blk1_apply V c t p k r hr)
    (funext fun k => blk2_apply V c t p k r hr)
    (blk3_apply V c t p 0 r hr)
    (edgeW2_congr (blk4_eq V c t) (blk5_eq V c t) (blk6_eq V c t) (blk7_eq V c t) (blk8_eq V c t) (blk9_eq V c t))

/-- Row p of the message window's block at point t sits at row 8000·t + p of the message array. -/
theorem out_emb (t : Fin cfg0.N) (p : Fin 8000) (j : Fin 128) (r : Fin 640000) (hr : r.val = 8000 * t.val + p.val) :
    (((cfg0.win 10).blk t).view.emb (ix2 p j) : S640000x128.Idx) = ix2 r j := by
  obtain ⟨-, -, -, -, -, -, -, -, -, -, ⟨e0, e1⟩⟩ := idx_facts t
  funext a; apply Fin.ext
  match a with
  | ⟨0, _⟩ => show win0_10.index t (0 : Fin 2) * 8000 + 1 * p.val = r.val; omega
  | ⟨1, _⟩ => show win0_10.index t (1 : Fin 2) * 128 + 1 * j.val = j.val; omega

/-- The block the body leaves at point t, entry by entry, is the message array read through the point's block. -/
theorem msg_block_at (c : Dev nD) (t : Fin cfg0.N) (y : S8000x128.Idx) :
    out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y = msgArr V c (((cfg0.win 10).blk t).view.emb y) := by
  obtain ⟨p, j, rfl⟩ : ∃ (p : Fin 8000) (j : Fin 128), y = ix2 p j := ⟨y 0, y 1, eq_ix2 y⟩
  have hp : p.val < 8000 := p.isLt
  have ht : t.val < 80 := point_lt t
  have hlt : 8000 * t.val + p.val < 640000 := by omega
  exact (msg_block V c t p j ⟨8000 * t.val + p.val, hlt⟩ rfl).trans
    (congrArg (msgArr V c) (out_emb t p j ⟨8000 * t.val + p.val, hlt⟩ rfl).symm)

/-- What point t writes back is block t of the message array. -/
theorem flushed_eq (c : Dev nD) (t : Fin cfg0.N) :
    (dat0 (F := Ideal) V c).flushed 10 t = ((cfg0.win 10).blk t).view.read (Elt Ideal) (msgArr V c) := by
  show (cfg0.win 10).cut (grid0.coords t) ((dat0 (F := Ideal) V c).after 10 t) = _
  rw [after0_10]
  funext y
  exact msg_block_at V c t y

/-! ## The blocks cover the array -/

/-- An index of the message array is in point t's block iff each coordinate is in the block's range on its axis. -/
theorem mem_blk (t : Fin cfg0.N) (i : S640000x128.Idx) :
    i ∈ ((cfg0.win 10).blk t).view.set ↔ ∀ a : Fin 2, win0_10.index t a * S8000x128.size a ≤ (i a).val ∧ (i a).val < win0_10.index t a * S8000x128.size a + S8000x128.size a := by
  show i ∈ ((View.whole main_v9).slice (win0_10.rect t)).set ↔ _
  rw [View.set_slice_whole, Rect.mem_set_unit]
  exact Iff.rfl

/-- Row e of the message array lies in the block of point e / 8000. -/
theorem covered (i : S640000x128.Idx) (t : Fin cfg0.N) (ht : t.val = (i 0).val / 8000) :
    i ∈ ((cfg0.win 10).blk t).view.set := by
  obtain ⟨-, -, -, -, -, -, -, -, -, -, ⟨e0, e1⟩⟩ := idx_facts t
  have hi1 : (i 1).val < 128 := (i 1).isLt
  rw [mem_blk]
  intro a
  match a with
  | ⟨0, _⟩ => show win0_10.index t (0 : Fin 2) * 8000 ≤ (i 0).val ∧ (i 0).val < win0_10.index t (0 : Fin 2) * 8000 + 8000; omega
  | ⟨1, _⟩ => show win0_10.index t (1 : Fin 2) * 128 ≤ (i 1).val ∧ (i 1).val < win0_10.index t (1 : Fin 2) * 128 + 128; omega

theorem cover (i : S640000x128.Idx) :
    ∃ t : Fin cfg0.N, (cfg0.win 10).flush t = true ∧ i ∈ ((cfg0.win 10).blk t).view.set := by
  have hi0 : (i 0).val < 640000 := (i 0).isLt
  have hlt : (i 0).val / 8000 < 80 := by omega
  exact ⟨⟨(i 0).val / 8000, hlt⟩, flush0_10 _, covered i ⟨(i 0).val / 8000, hlt⟩ rfl⟩

/-- After the edge kernel's 80 grid points the message array holds, in row e, the message of edge e computed from
    row e of the arrays the region was entered with: each point writes the block of 8000 rows it read. -/
theorem arr0 (c : Dev nD) :
    ((dat0 (F := Ideal) V c).arrAt 10 cfg0.N : Spec.Arr 640000 128)
      = Spec.edgeMsg (V c main_v4) (V c main_v5) (V c main_arg2) (V c main_arg4)
          (Spec.edgeW2 (V c main_arg5) (V c main_v6) (V c main_arg7) (V c main_v7) (V c main_arg9) (V c main_v8)) :=
  (dat0 (F := Ideal) V c).arrAt_eq_of_cover 10 (msgArr V c) (fun t _ => flushed_eq V c t) cover

end Cert.KernelIdeal.Blocks

end
-- ==== Proof.Payload1.lean ====
import proofs.«404033_j12610023981467_1_alg».proof.Proof.Gen.KernelIdeal.Frame
import proofs.«404033_j12610023981467_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx
open Idealize.ShloMosaic.Pipeline (Dat Cfg Window)
open scoped BigOperators

namespace Node

/-! ## The node kernel's body, one level at a time

The body joins the node's feature row and its aggregated message row side by side, multiplies by the first weight
matrix, adds the first bias row, applies t ↦ t · σ(t), multiplies by the second weight matrix, adds the second bias
row, adds the feature row back and scales by the node's flag. Each level is read here at one row p. -/

/-- The offsets of a whole-block access are all zero. -/
theorem off_zero : (![0, 0] : Fin 2 → Nat) = fun _ => 0 :=
  funext fun a => match a with | ⟨0, _⟩ => rfl | ⟨1, _⟩ => rfl

/-- The two 128-wide blocks joined along the columns, read at row p and column k: the joined row [a_p, b_p] at k. -/
theorem cat_apply (a b : Vec Ideal S5000x128 .f32) (p : Fin 5000) (k : Fin 256) :
    concatenate S5000x256 1 [⟨S5000x128, a⟩, ⟨S5000x128, b⟩] concatenates_S5000x128_S5000x128_S5000x256_d1 (ix2 p k)
      = Spec.cat2 (Spec.rowOf a p) (Spec.rowOf b p) k := by
  unfold Spec.cat2
  by_cases h : k.val < 128
  · rw [dif_pos h]
    exact concatenate_pair_apply_left (1 : Fin S5000x256.rank) a b concatenates_S5000x128_S5000x128_S5000x256_d1 (ix2 p k) rfl
      (ix2 p ⟨k.val, h⟩) (fun c => match c with | ⟨0, _⟩ => rfl | ⟨1, _⟩ => rfl)
  · rw [dif_neg h]
    exact concatenate_pair_apply_right (1 : Fin S5000x256.rank) a b concatenates_S5000x128_S5000x128_S5000x256_d1 (ix2 p k) rfl rfl
      (ix2 p ⟨k.val - 128, by have := k.isLt; omega⟩)
      (fun c hc => match c, hc with
        | ⟨0, _⟩, _ => rfl
        | ⟨1, _⟩, hc => absurd rfl hc)
      (by show (k.val - 128) + 128 = k.val; omega)

/-! ### The two products with a weight matrix

A product into a zero accumulator, read at row p and column j, is the plain sum over the contracted coordinate of the
left factor's row p times the right factor's column j. The four facts before each say which coordinate of each
factor's index is the output's and which is the contracted one. -/

theorem lhs_mm1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_mm1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_mm1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_mm1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product at (p, j): the sum over the 256 joined coordinates. -/
theorem mm1_apply (l : FVec Ideal S5000x256 .bf16) (r : FVec Ideal S256x128 .bf16) (p : Fin 5000) (j : Fin 128) :
    matmul dot_S5000x256_S256x128_S5000x128_1_0_0_1_n_n none l r (constant (F := Ideal) S5000x128 .f32 0x00000000#32) (ix2 p j)
      = ∑ k : Fin 256, l (ix2 p k) * r (ix2 k j) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p j) ((ValueIdx.contrEquiv1 dot_S5000x256_S256x128_S5000x128_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S5000x256_S256x128_S5000x128_1_0_0_1_n_n.rhsIdx (ix2 p j) ((ValueIdx.contrEquiv1 dot_S5000x256_S256x128_S5000x128_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product at (p, j): the sum over the 128 hidden coordinates. -/
theorem mm2_apply (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_mm2_0 _ _).trans hk
    | ⟨1, _⟩ => exact rhs_mm2_1 _ _)
  rw [el, er]

/-! ### The broadcasts -/

/-- A one-row block repeated down the rows, read at (p, j): the row's entry j. -/
theorem bc_row_apply (v : FVec Ideal S1x128 .f32) (p : Fin 5000) (j : Fin 128) :
    broadcastTo S5000x128 v broadcasts_S1x128_S5000x128 (ix2 p j) = v (ix2 0 j) :=
  broadcastTo_apply v broadcasts_S1x128_S5000x128 (ix2 p j) (ix2 0 j) (fun a => match a with
    | ⟨0, _⟩ => by show 0 = if (1 : Nat) = 1 then 0 else p.val; rw [if_pos rfl]
    | ⟨1, _⟩ => by show j.val = if (128 : Nat) = 1 then 0 else j.val; rw [if_neg (by decide)])

/-- A one-column block repeated along the columns, read at (p, j): the column's entry p. -/
theorem bc_col_apply (v : FVec Ideal S5000x1 .f32) (p : Fin 5000) (j : Fin 128) :
    broadcastTo S5000x128 v broadcasts_S5000x1_S5000x128 (ix2 p j) = v (ix2 p 0) :=
  broadcastTo_apply v broadcasts_S5000x1_S5000x128 (ix2 p j) (ix2 p 0) (fun a => match a with
    | ⟨0, _⟩ => by show p.val = if (5000 : Nat) = 1 then 0 else p.val; rw [if_neg (by decide)]
    | ⟨1, _⟩ => by show 0 = if (1 : Nat) = 1 then 0 else j.val; rw [if_pos rfl])

/-! ### The payload -/

/-- The hidden layer before its activation, read at (p, k): row p of the joined block times column k of the first
    weight matrix, plus the first bias at k. -/
theorem pre_apply (v0 v1 : Vec Ideal S5000x128 .f32) (v5 : Vec Ideal S256x128 .f32) (v7 : Vec Ideal S1x128 .f32)
    (p : Fin 5000) (k : Fin 128) :
    (addf (matmul dot_S5000x256_S256x128_S5000x128_1_0_0_1_n_n none
        (truncf .bf16 (concatenate S5000x256 1 [⟨S5000x128, v0⟩, ⟨S5000x128, v1⟩]
          concatenates_S5000x128_S5000x128_S5000x256_d1 : FVec Ideal S5000x256 .f32) bitsLt_bf16_f32)
        (truncf .bf16 (v5 : FVec Ideal S256x128 .f32) bitsLt_bf16_f32) (constant (F := Ideal) S5000x128 .f32 0x00000000#32))
      (broadcastTo S5000x128 v7 broadcasts_S1x128_S5000x128) : FVec Ideal S5000x128 .f32) (ix2 p k)
      = (∑ q : Fin 256, Spec.cat2 (Spec.rowOf v0 p) (Spec.rowOf v1 p) q * v5 (ix2 q k)) + v7 (ix2 0 k) := by
  rw [addf_apply, mm1_apply, bc_row_apply]
  refine congrArg (· + v7 (ix2 0 k)) (Finset.sum_congr rfl fun q _ => ?_)
  rw [truncf_apply, truncf_apply, cat_apply]

/-- The payload read at (p, j): the updated feature of the node in row p. -/
theorem k1_pay1_apply (v0 v1 : Vec Ideal S5000x128 .f32) (v5 : Vec Ideal S256x128 .f32) (v7 : Vec Ideal S1x128 .f32)
    (v14 : Vec Ideal S128x128 .f32) (v16 : Vec Ideal S1x128 .f32) (v22 : Vec Ideal S5000x1 .f32) (p : Fin 5000) (j : Fin 128) :
    k1_pay1 (F := Ideal) v0 v1 v5 v7 v14 v16 v22 (ix2 p j)
      = Spec.nodeRow (Spec.rowOf v0 p) (Spec.rowOf v1 p) (v22 (ix2 p 0)) (Spec.nodeW2 v5 v7 v14 v16) j := by
  unfold k1_pay1
  rw [shapeCast_self, shapeCast_self, shapeCast_self]
  rw [mulf_apply, addf_apply, addf_apply, mm2_apply, bc_row_apply, bc_col_apply]
  refine congrArg (· * v22 (ix2 p 0)) (congrArg (v0 (ix2 p j) + ·) (congrArg (· + v16 (ix2 0 j)) (Finset.sum_congr rfl fun k _ => ?_)))
  rw [truncf_apply, truncf_apply, mulf_apply]
  refine congrArg (· * v14 (ix2 k j)) ?_
  show _ * Ideal.logistic _ = Spec.silu _
  rw [pre_apply]
  rfl

end Node

/-- What the node kernel's body leaves in its output block, read at row p and column j: the update of the node in
    row p of the input blocks. -/
theorem out1_7_apply (x0 x1 : Vec Ideal S5000x128 .f32) (x2 : Vec Ideal S5000x1 .f32) (x3 : Vec Ideal S256x128 .f32)
    (x4 : Vec Ideal S1x128 .f32) (x5 : Vec Ideal S128x128 .f32) (x6 : Vec Ideal S1x128 .f32) (p : Fin 5000) (j : Fin 128) :
    out1_7 (F := Ideal) x0 x1 x2 x3 x4 x5 x6 (ix2 p j)
      = Spec.nodeRow (Spec.rowOf x0 p) (Spec.rowOf x1 p) (x2 (ix2 p 0)) (Spec.nodeW2 x3 x4 x5 x6) j := by
  unfold out1_7
  rw [View.canon_unit_zero Node.off_zero]
  simp only [View.ld_unit_zero (S := S5000x128) Node.off_zero, View.ld_unit_zero (S := S256x128) Node.off_zero,
    View.ld_unit_zero (S := S1x128) Node.off_zero, View.ld_unit_zero (S := S128x128) Node.off_zero,
    View.ld_unit_zero (S := S5000x1) Node.off_zero]
  exact Node.k1_pay1_apply x0 x1 x3 x4 x5 x6 x2 p j

end Cert.KernelIdeal.Payload

end
-- ==== Proof.Blocks1.lean ====
import proofs.«404033_j12610023981467_1_alg».proof.Proof.Payload1

set_option maxRecDepth 16384

noncomputable section

namespace Cert.KernelIdeal.Blocks.Node

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- The printed index maps over the 4 grid points: a row-blocked window's block index is (t, 0), a weight window's (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ t.val < 4 :=
  (by decide +kernel : ∀ t : Fin grid1.N, _)

/-- Point t's block of the feature array is its rows 5000·t … 5000·t + 4999: entry (p, k) of the block is entry (5000·t + p, k) of the array. -/
theorem blk0_apply (c : Dev nD) (t : Fin cfg1.N) (p : Fin 5000) (k : Fin 128) (h : 5000 * t.val + p.val < 20000) :
    (iblk1 V c 0 t : Vec Ideal S5000x128 .f32) (ix2 p k)
      = (V c main_arg0 : Spec.Arr 20000 128) (ix2 ⟨5000 * t.val + p.val, h⟩ k) := by
  obtain ⟨e00, e01, e10, e11, e20, e21, -⟩ := idx_facts t
  show V c main_arg0 (((cfg1.win 0).blk t).view.emb (ix2 p k)) = V c main_arg0 _
  refine congrArg _ ?_
  funext a
  apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- Point t's block of the aggregated-message array is its rows 5000·t … 5000·t + 4999. -/
theorem blk1_apply (c : Dev nD) (t : Fin cfg1.N) (p : Fin 5000) (k : Fin 128) (h : 5000 * t.val + p.val < 20000) :
    (iblk1 V c 1 t : Vec Ideal S5000x128 .f32) (ix2 p k)
      = (V c main_v12 : Spec.Arr 20000 128) (ix2 ⟨5000 * t.val + p.val, h⟩ k) := by
  obtain ⟨e00, e01, e10, e11, e20, e21, -⟩ := idx_facts t
  show V c main_v12 (((cfg1.win 1).blk t).view.emb (ix2 p k)) = V c main_v12 _
  refine congrArg _ ?_
  funext a
  apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- Point t's block of the flag column is its rows 5000·t … 5000·t + 4999. -/
theorem blk2_apply (c : Dev nD) (t : Fin cfg1.N) (p : Fin 5000) (k : Fin 1) (h : 5000 * t.val + p.val < 20000) :
    (iblk1 V c 2 t : Vec Ideal S5000x1 .f32) (ix2 p k)
      = (V c main_arg3 : Spec.Arr 20000 1) (ix2 ⟨5000 * t.val + p.val, h⟩ k) := by
  obtain ⟨e00, e01, e10, e11, e20, e21, -⟩ := idx_facts t
  show V c main_arg3 (((cfg1.win 2).blk t).view.emb (ix2 p k)) = V c main_arg3 _
  refine congrArg _ ?_
  funext a
  apply Fin.ext
  match a with
  | ⟨0, _⟩ => show win1_2.index t (0 : Fin 2) * 5000 + 1 * p.val = 5000 * t.val + p.val; omega
  | ⟨1, _⟩ => show win1_2.index t (1 : Fin 2) * 1 + 1 * k.val = k.val; omega

/-- Every point reads the whole first weight matrix. -/
theorem blk3_eq (c : Dev nD) (t : Fin cfg1.N) :
    (iblk1 V c 3 t : Vec Ideal S256x128 .f32) = (V c main_arg11 : Spec.Arr 256 128) := by
  obtain ⟨-, -, -, -, -, -, e30, e31, e40, e41, e50, e51, e60, e61, -⟩ := idx_facts t
  funext y
  show V c main_arg11 (((cfg1.win 3).blk t).view.emb y) = V c main_arg11 y
  refine congrArg _ ?_
  funext a
  apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega

/-- Every point reads the whole first bias row. -/
theorem blk4_eq (c : Dev nD) (t : Fin cfg1.N) :
    (iblk1 V c 4 t : Vec Ideal S1x128 .f32) = (V c main_v13 : Spec.Arr 1 128) := by
  obtain ⟨-, -, -, -, -, -, e30, e31, e40, e41, e50, e51, e60, e61, -⟩ := idx_facts t
  funext y
  show V c main_v13 (((cfg1.win 4).blk t).view.emb y) = V c main_v13 y
  refine congrArg _ ?_
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Every point reads the whole second weight matrix. -/
theorem blk5_eq (c : Dev nD) (t : Fin cfg1.N) :
    (iblk1 V c 5 t : Vec Ideal S128x128 .f32) = (V c main_arg13 : Spec.Arr 128 128) := by
  obtain ⟨-, -, -, -, -, -, e30, e31, e40, e41, e50, e51, e60, e61, -⟩ := idx_facts t
  funext y
  show V c main_arg13 (((cfg1.win 5).blk t).view.emb y) = V c main_arg13 y
  refine congrArg _ ?_
  funext a
  apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Every point reads the whole second bias row. -/
theorem blk6_eq (c : Dev nD) (t : Fin cfg1.N) :
    (iblk1 V c 6 t : Vec Ideal S1x128 .f32) = (V c main_v14 : Spec.Arr 1 128) := by
  obtain ⟨-, -, -, -, -, -, e30, e31, e40, e41, e50, e51, e60, e61, -⟩ := idx_facts t
  funext y
  show V c main_v14 (((cfg1.win 6).blk t).view.emb y) = V c main_v14 y
  refine congrArg _ ?_
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The whole result array: row r is the node update of row r of the entry arrays. -/
abbrev nodeArr (c : Dev nD) : Spec.Arr 20000 128 :=
  Spec.nodeOut (V c main_arg0) (V c main_v12) (V c main_arg3)
    (Spec.nodeW2 (V c main_arg11) (V c main_v13) (V c main_arg13) (V c main_v14))

/-- Entry (p, j) of point t's block of the result array is entry (5000·t + p, j) of the array. -/
theorem emb7 (t : Fin cfg1.N) (p : Fin 5000) (j : Fin 128) (h : 5000 * t.val + p.val < 20000) :
    (((cfg1.win 7).blk t).view.emb (ix2 p j) : S20000x128.Idx) = ix2 ⟨5000 * t.val + p.val, h⟩ j := by
  obtain ⟨-, -, -, -, -, -, -, -, -, -, -, -, -, -, e70, e71, -⟩ := idx_facts t
  funext a
  apply Fin.ext
  match a with
  | ⟨0, _⟩ => show win1_7.index t (0 : Fin 2) * 5000 + 1 * p.val = 5000 * t.val + p.val; omega
  | ⟨1, _⟩ => show win1_7.index t (1 : Fin 2) * 128 + 1 * j.val = j.val; omega

/-- A node's update depends only on its feature row, its message row, its flag and the weights. -/
theorem nodeRow_congr {x x' g g' : Fin 128 → EReal} {fl fl' : EReal} {w w' : Spec.NodeW}
    (hx : x = x') (hg : g = g') (hf : fl = fl') (hw : w = w') (j : Fin 128) :
    Spec.nodeRow x g fl w j = Spec.nodeRow x' g' fl' w' j := by
  subst hx hg hf hw; rfl

/-- What point t writes back is block t of the whole result array: row p of the block is the update of node 5000·t + p,
    computed from row 5000·t + p of the entry arrays and the whole weight arrays. -/
theorem flushed_eq (c : Dev nD) (t : Fin cfg1.N) :
    (dat1 (F := Ideal) V c).flushed 7 t = ((cfg1.win 7).blk t).view.read (Elt Ideal) (nodeArr V c) := by
  show (cfg1.win 7).cut (grid1.coords t) ((dat1 (F := Ideal) V c).after 7 t) = _
  rw [after1_7]
  have ht : t.val < 4 := (idx_facts t).2.2.2.2.2.2.2.2.2.2.2.2.2.2.2.2
  funext y
  obtain ⟨p, j, rfl⟩ : ∃ (p : Fin 5000) (j : Fin 128), y = ix2 p j := ⟨y 0, y 1, eq_ix2 y⟩
  have h : 5000 * t.val + p.val < 20000 := by have := p.isLt; omega
  show out1_7 (F := Ideal) (iblk1 V c 0 t) (iblk1 V c 1 t) (iblk1 V c 2 t) (iblk1 V c 3 t) (iblk1 V c 4 t) (iblk1 V c 5 t) (iblk1 V c 6 t) (ix2 p j)
      = nodeArr V c (((cfg1.win 7).blk t).view.emb (ix2 p j))
  refine (Payload.out1_7_apply (iblk1 V c 0 t) (iblk1 V c 1 t) (iblk1 V c 2 t) (iblk1 V c 3 t) (iblk1 V c 4 t) (iblk1 V c 5 t) (iblk1 V c 6 t) p j).trans ?_
  rw [emb7 t p j h]
  show _ = Spec.nodeRow (Spec.rowOf (V c main_arg0) ⟨5000 * t.val + p.val, h⟩) (Spec.rowOf (V c main_v12) ⟨5000 * t.val + p.val, h⟩)
      ((V c main_arg3 : Spec.Arr 20000 1) (ix2 ⟨5000 * t.val + p.val, h⟩ 0))
      (Spec.nodeW2 (V c main_arg11) (V c main_v13) (V c main_arg13) (V c main_v14)) j
  refine nodeRow_congr (funext fun k => blk0_apply V c t p k h) (funext fun k => blk1_apply V c t p k h)
    (blk2_apply V c t p 0 h) ?_ j
  rw [blk3_eq V c t, blk4_eq V c t, blk5_eq V c t, blk6_eq V c t]

/-- An index of the result array is in point t's block iff each coordinate is in the block's range on its axis. -/
theorem mem_blk (t : Fin cfg1.N) (i : S20000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v15).slice (win1_7.rect t)).set ↔ _
  rw [View.set_slice_whole, Rect.mem_set_unit]
  exact Iff.rfl

/-- Every row of the result array lies in the block of the point r / 5000. -/
theorem cover (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  have hN : cfg1.N = 4 := N_1
  let t : Fin cfg1.N := ⟨(i 0).val / 5000, by rw [hN]; omega⟩
  have htv : t.val = (i 0).val / 5000 := rfl
  obtain ⟨-, -, -, -, -, -, -, -, -, -, -, -, -, -, e70, e71, -⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The 4 blocks of 5000 rows tile the 20000 rows, so the array after the last point is the whole-array function. -/
theorem arr1' (c : Dev nD) : (dat1 (F := Ideal) V c).arrAt 7 cfg1.N = nodeArr V c :=
  (dat1 (F := Ideal) V c).arrAt_eq_of_cover 7 (nodeArr V c) (fun t _ => flushed_eq V c t) cover

/-- After the node kernel's 4 grid points the result array holds, in row v, the update of node v computed from
    row v of the arrays the region was entered with: each point writes the block of 5000 rows it read. -/
theorem arr1 (c : Dev nD) :
    ((dat1 (F := Ideal) V c).arrAt 7 cfg1.N : Spec.Arr 20000 128)
      = Spec.nodeOut (V c main_arg0) (V c main_v12) (V c main_arg3)
          (Spec.nodeW2 (V c main_arg11) (V c main_v13) (V c main_arg13) (V c main_v14)) :=
  arr1' V c

end Cert.KernelIdeal.Blocks.Node

end
-- ==== Proof.KHost.lean ====
/- The host operations around the two kernels, as functions of the arrays they read: the two rows of the edge list, the
   lookup of node rows by an index vector (a negative index is wrapped once, then the lookup clamps), the same lookup with
   the fill the program's take writes where the wrapped index is out of range, and the sum of message rows into the rows
   their source index names. -/
import proofs.«404033_j12610023981467_1_alg».proof.Proof.Gen.KernelIdeal
import Idealize.ShloMosaic.PureOps.Ideal

noncomputable section

namespace Cert.KernelIdeal.KHost

open Cert.KernelIdeal Cert.KernelIdeal.Gen
open Idealize.ShloMosaic Idealize.ShloMosaic.TcCoe

/-- Row 0 of the edge list: the source node of every edge. -/
def rowI (EI : IVec S2x640000 32) : IVec S640000 32 :=
  shapeCast S640000 (extractStridedSlice S1x640000 ![0, 0] EI slices_S2x640000_S1x640000_0_0) shapeCasts_S1x640000_S640000

/-- Row 1 of the edge list: the target node of every edge. -/
def colI (EI : IVec S2x640000 32) : IVec S640000 32 :=
  shapeCast S640000 (extractStridedSlice S1x640000 ![1, 0] EI slices_S2x640000_S1x640000_1_0) shapeCasts_S1x640000_S640000

/-- An index vector with its negative entries wrapped once by the number of nodes. -/
def wrap (r : IVec S640000 32) : IVec S640000 32 :=
  select (cmpi .slt r (broadcastInDim S640000 ![] bcast_S_S640000 (constantI S_ 32 0#32)))
    (addi r (broadcastInDim S640000 ![] bcast_S_S640000 (constantI S_ 32 20000#32))) r

/-- The wrapped index vector as the column of start indices the lookup takes. -/
def gidx (r : IVec S640000 32) : IVec S640000x1 32 :=
  broadcastInDim S640000x1 ![0] bcast_S640000_S640000x1_0 (wrap r)

/-- The node rows an index vector names. -/
def takeK (h : FVec Ideal S20000x128 .f32) (r : IVec S640000 32) : FVec Ideal S640000x128 .f32 :=
  Host.gather gather_S20000x128_S640000x1_S640000x128_1_0_n_n_0_1_1128 h (gidx r)

/-- Which wrapped indices lie in [0, 19999], one bit per edge. -/
def inRange (r : IVec S640000 32) : IVec S640000 1 :=
  Host.reduce IntOp.andi
    (andi (cmpi .sge (gidx r) (broadcastInDim S640000x1 ![] bcast_S_S640000x1 (constantI S_ 32 0#32)))
      (cmpi .sle (gidx r) (broadcastInDim S640000x1 ![0, 1] bcast_S1x1_S640000x1_0_1
        (broadcastInDim S1x1 ![1] bcast_S1_S1x1_1 (constantI S1 32 19999#32)))))
    (constantI S_ 1 1#1) reducesTo_S640000x1_S640000_d1 h_S_

/-- The program's take: the looked-up row where the wrapped index is in range, the fill pattern elsewhere. -/
def takeFill (h : FVec Ideal S20000x128 .f32) (r : IVec S640000 32) : FVec Ideal S640000x128 .f32 :=
  select (broadcastInDim S640000x128 ![0] bcast_S640000_S640000x128_0 (inRange r)) (takeK h r)
    (broadcastInDim S640000x128 ![] bcast_S_S640000x128 (constant S_ .f32 0x7FC00000#32))

/-- The message rows summed into the node rows their source index names, from zero. -/
def aggK (EI : IVec S2x640000 32) (E : FVec Ideal S640000x128 .f32) : FVec Ideal S20000x128 .f32 :=
  Host.scatterAdd scatter_S20000x128_S640000x1_S640000x128_1_0_0_1
    (broadcastInDim S20000x128 ![] bcast_S_S20000x128 (constant S_ .f32 0x00000000#32))
    (broadcastInDim S640000x1 ![0] bcast_S640000_S640000x1_0 (rowI EI)) E

/-- A bias vector laid out as a one-row matrix. -/
def row128 (b : FVec Ideal S128 .f32) : FVec Ideal S1x128 .f32 := shapeCast S1x128 b shapeCasts_S128_S1x128
/-- A one-entry vector laid out as a 1 × 1 matrix. -/
def row1 (b : FVec Ideal S1 .f32) : FVec Ideal S1x1 .f32 := shapeCast S1x1 b shapeCasts_S1_S1x1

end Cert.KernelIdeal.KHost

end
-- ==== Proof.Glue0.lean ====
import proofs.«404033_j12610023981467_1_alg».proof.Proof.Gen.KernelIdeal.Frame
import proofs.«404033_j12610023981467_1_alg».proof.Proof.KHost
import Idealize.ShloMosaic.Lib.StableHlo.Run

set_option maxRecDepth 16384

noncomputable section

namespace Cert.KernelIdeal.Glue

open Cert.KernelIdeal Cert.KernelIdeal.Gen Cert.KernelIdeal.KHost
open Idealize.ShloMosaic Idealize.ShloMosaic.TcCoe Idealize.SL.Sem

/-! ## The references each of the four host stretches writes

Every operation writes one reference; a stretch's list holds them in order. A reference outside the list keeps its
contents across the stretch. -/

/-- A reference of a list, as a device buffer, lies in the set of the list's device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Written by the slicing of the edge list into its two rows. -/
def wr0 : List (Ref sig .tc) := [main_v0, main_v1, main_v2, main_v3]
/-- Written by the lookup of the source rows. -/
def wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
/-- Written by the lookup of the target rows. -/
def wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
/-- Written by the three reshapes of the bias vectors. -/
def wr3 : List (Ref sig .tc) := [main_v6, main_v7, main_v8]

theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub_of_mem (by decide)
theorem wr1_sub : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub_of_mem (by decide)
theorem wr2_sub : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub_of_mem (by decide)
theorem wr3_sub : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes, StableHlo.reshape_writes]
  repeat' apply And.intro
  all_goals exact single_sub_of_mem (by decide)

variable (m : (ℓ : Loc nD τ sig) → Buf (Elt Ideal) ℓ) (ρ : Dev nD → PrngReg)

/-! ## A reference no stretch so far writes holds the launch memory -/

theorem W1_keep (c : Dev nD) {r : Ref sig .tc} (h0 : r ∉ wr0) :
    W1 m ρ c (Proc.devRef .tc r) = m ((c : Thread nD τ).loc r) :=
  (StableHlo.after_of_writes_sub hostOps0 (W0 m ρ c) wr0_sub h0).trans rfl
theorem W2_keep (c : Dev nD) {r : Ref sig .tc} (h0 : r ∉ wr0) (h1 : r ∉ wr1) :
    W2 m ρ c (Proc.devRef .tc r) = m ((c : Thread nD τ).loc r) :=
  (StableHlo.after_of_writes_sub hostOps0_1 (W1 m ρ c) wr1_sub h1).trans (W1_keep m ρ c h0)
theorem W3_keep (c : Dev nD) {r : Ref sig .tc} (h0 : r ∉ wr0) (h1 : r ∉ wr1) (h2 : r ∉ wr2) :
    W3 m ρ c (Proc.devRef .tc r) = m ((c : Thread nD τ).loc r) :=
  (StableHlo.after_of_writes_sub hostOps0_2 (W2 m ρ c) wr2_sub h2).trans (W2_keep m ρ c h0 h1)
theorem W4_keep (c : Dev nD) {r : Ref sig .tc} (h0 : r ∉ wr0) (h1 : r ∉ wr1) (h2 : r ∉ wr2) (h3 : r ∉ wr3) :
    W4 m ρ c (Proc.devRef .tc r) = m ((c : Thread nD τ).loc r) :=
  (StableHlo.after_of_writes_sub hostOps0_3 (W3 m ρ c) wr3_sub h3).trans (W3_keep m ρ c h0 h1 h2)

/-! ## What each stretch leaves at a reference it writes, over any contents it starts from -/

/-- Contents moved to a typed reference's buffer and back are the contents. -/
theorem ofBuf_toBuf {T : BufTy} (x : StableHlo.TRef sig T) (v : T.Contents (Elt Ideal)) :
    x.ofBuf (x.toBuf v) = v := by
  obtain ⟨r, e, d, u⟩ := x
  subst e
  rfl

theorem after0_v1 (V : Valuation τ sig (Elt Ideal)) :
    StableHlo.after hostOps0 V (Proc.devRef .tc main_v1) = rowI (V (Proc.devRef .tc main_arg1)) := by
  dsimp only [hostOps0]
  after_results
  rfl
theorem after0_v3 (V : Valuation τ sig (Elt Ideal)) :
    StableHlo.after hostOps0 V (Proc.devRef .tc main_v3) = colI (V (Proc.devRef .tc main_arg1)) := by
  dsimp only [hostOps0]
  after_results
  rfl
theorem after1_v4 (V : Valuation τ sig (Elt Ideal)) :
    StableHlo.after hostOps0_1 V (Proc.devRef .tc main_v4)
      = takeFill (V (Proc.devRef .tc main_arg0)) (V (Proc.devRef .tc main_v1)) := by
  dsimp only [hostOps0_1]
  after_results_simp
  simp only [ofBuf_toBuf]
  simp only [cast_eq]
  unfold takeFill takeK inRange gidx wrap
  rfl
theorem after2_v5 (V : Valuation τ sig (Elt Ideal)) :
    StableHlo.after hostOps0_2 V (Proc.devRef .tc main_v5)
      = takeFill (V (Proc.devRef .tc main_arg0)) (V (Proc.devRef .tc main_v3)) := by
  dsimp only [hostOps0_2]
  after_results_simp
  simp only [ofBuf_toBuf]
  simp only [cast_eq]
  unfold takeFill takeK inRange gidx wrap
  rfl
theorem after3_v6 (V : Valuation τ sig (Elt Ideal)) :
    StableHlo.after hostOps0_3 V (Proc.devRef .tc main_v6) = row128 (V (Proc.devRef .tc main_arg6)) := by
  dsimp only [hostOps0_3]
  after_results
  rfl
theorem after3_v7 (V : Valuation τ sig (Elt Ideal)) :
    StableHlo.after hostOps0_3 V (Proc.devRef .tc main_v7) = row128 (V (Proc.devRef .tc main_arg8)) := by
  dsimp only [hostOps0_3]
  after_results
  rfl
theorem after3_v8 (V : Valuation τ sig (Elt Ideal)) :
    StableHlo.after hostOps0_3 V (Proc.devRef .tc main_v8) = row1 (V (Proc.devRef .tc main_arg10)) := by
  dsimp only [hostOps0_3]
  after_results
  rfl

/-- The source row of the edge list, once the slicing has run. -/
theorem W1_v1 (c : Dev nD) : W1 m ρ c (Proc.devRef .tc main_v1) = rowI (m ((c : Thread nD τ).loc main_arg1)) :=
  (after0_v1 (W0 m ρ c)).trans rfl
/-- The target row of the edge list, once the slicing has run. -/
theorem W1_v3 (c : Dev nD) : W1 m ρ c (Proc.devRef .tc main_v3) = colI (m ((c : Thread nD τ).loc main_arg1)) :=
  (after0_v3 (W0 m ρ c)).trans rfl

/-! The contents the edge kernel's region is entered with (the fold of the four host stretches before it over the
    launch memory), read at each array the region stages. -/

theorem W4_v1 (c : Dev nD) : W4 m ρ c (Proc.devRef .tc main_v1) = rowI (m ((c : Thread nD τ).loc main_arg1)) :=
  (StableHlo.after_of_writes_sub hostOps0_3 (W3 m ρ c) wr3_sub (by decide)).trans <|
  (StableHlo.after_of_writes_sub hostOps0_2 (W2 m ρ c) wr2_sub (by decide)).trans <|
  (StableHlo.after_of_writes_sub hostOps0_1 (W1 m ρ c) wr1_sub (by decide)).trans (W1_v1 m ρ c)
theorem W4_v4 (c : Dev nD) : W4 m ρ c (Proc.devRef .tc main_v4) = takeFill (m ((c : Thread nD τ).loc main_arg0)) (rowI (m ((c : Thread nD τ).loc main_arg1))) :=
  (StableHlo.after_of_writes_sub hostOps0_3 (W3 m ρ c) wr3_sub (by decide)).trans <|
  (StableHlo.after_of_writes_sub hostOps0_2 (W2 m ρ c) wr2_sub (by decide)).trans <|
  (after1_v4 (W1 m ρ c)).trans (congrArg₂ takeFill (W1_keep m ρ c (by decide)) (W1_v1 m ρ c))
theorem W4_v5 (c : Dev nD) : W4 m ρ c (Proc.devRef .tc main_v5) = takeFill (m ((c : Thread nD τ).loc main_arg0)) (colI (m ((c : Thread nD τ).loc main_arg1))) :=
  (StableHlo.after_of_writes_sub hostOps0_3 (W3 m ρ c) wr3_sub (by decide)).trans <|
  (after2_v5 (W2 m ρ c)).trans (congrArg₂ takeFill (W2_keep m ρ c (by decide) (by decide))
    ((StableHlo.after_of_writes_sub hostOps0_1 (W1 m ρ c) wr1_sub (by decide)).trans (W1_v3 m ρ c)))
theorem W4_arg2 (c : Dev nD) : W4 m ρ c (Proc.devRef .tc main_arg2) = m ((c : Thread nD τ).loc main_arg2) :=
  W4_keep m ρ c (by decide) (by decide) (by decide) (by decide)
theorem W4_arg4 (c : Dev nD) : W4 m ρ c (Proc.devRef .tc main_arg4) = m ((c : Thread nD τ).loc main_arg4) :=
  W4_keep m ρ c (by decide) (by decide) (by decide) (by decide)
theorem W4_arg5 (c : Dev nD) : W4 m ρ c (Proc.devRef .tc main_arg5) = m ((c : Thread nD τ).loc main_arg5) :=
  W4_keep m ρ c (by decide) (by decide) (by decide) (by decide)
theorem W4_arg7 (c : Dev nD) : W4 m ρ c (Proc.devRef .tc main_arg7) = m ((c : Thread nD τ).loc main_arg7) :=
  W4_keep m ρ c (by decide) (by decide) (by decide) (by decide)
theorem W4_arg9 (c : Dev nD) : W4 m ρ c (Proc.devRef .tc main_arg9) = m ((c : Thread nD τ).loc main_arg9) :=
  W4_keep m ρ c (by decide) (by decide) (by decide) (by decide)
theorem W4_v6 (c : Dev nD) : W4 m ρ c (Proc.devRef .tc main_v6) = row128 (m ((c : Thread nD τ).loc main_arg6)) :=
  (after3_v6 (W3 m ρ c)).trans (congrArg row128 (W3_keep m ρ c (by decide) (by decide) (by decide)))
theorem W4_v7 (c : Dev nD) : W4 m ρ c (Proc.devRef .tc main_v7) = row128 (m ((c : Thread nD τ).loc main_arg8)) :=
  (after3_v7 (W3 m ρ c)).trans (congrArg row128 (W3_keep m ρ c (by decide) (by decide) (by decide)))
theorem W4_v8 (c : Dev nD) : W4 m ρ c (Proc.devRef .tc main_v8) = row1 (m ((c : Thread nD τ).loc main_arg10)) :=
  (after3_v8 (W3 m ρ c)).trans (congrArg row1 (W3_keep m ρ c (by decide) (by decide) (by decide)))
/-- …and at the arrays only the node kernel's region reads: untouched so far. -/
theorem W4_arg0 (c : Dev nD) : W4 m ρ c (Proc.devRef .tc main_arg0) = m ((c : Thread nD τ).loc main_arg0) :=
  W4_keep m ρ c (by decide) (by decide) (by decide) (by decide)
theorem W4_arg3 (c : Dev nD) : W4 m ρ c (Proc.devRef .tc main_arg3) = m ((c : Thread nD τ).loc main_arg3) :=
  W4_keep m ρ c (by decide) (by decide) (by decide) (by decide)
theorem W4_arg11 (c : Dev nD) : W4 m ρ c (Proc.devRef .tc main_arg11) = m ((c : Thread nD τ).loc main_arg11) :=
  W4_keep m ρ c (by decide) (by decide) (by decide) (by decide)
theorem W4_arg12 (c : Dev nD) : W4 m ρ c (Proc.devRef .tc main_arg12) = m ((c : Thread nD τ).loc main_arg12) :=
  W4_keep m ρ c (by decide) (by decide) (by decide) (by decide)
theorem W4_arg13 (c : Dev nD) : W4 m ρ c (Proc.devRef .tc main_arg13) = m ((c : Thread nD τ).loc main_arg13) :=
  W4_keep m ρ c (by decide) (by decide) (by decide) (by decide)
theorem W4_arg14 (c : Dev nD) : W4 m ρ c (Proc.devRef .tc main_arg14) = m ((c : Thread nD τ).loc main_arg14) :=
  W4_keep m ρ c (by decide) (by decide) (by decide) (by decide)

end Cert.KernelIdeal.Glue

end
-- ==== Proof.Glue1.lean ====
import proofs.«404033_j12610023981467_1_alg».proof.Proof.Gen.KernelIdeal.Frame
import proofs.«404033_j12610023981467_1_alg».proof.Proof.KHost
import Idealize.ShloMosaic.Lib.StableHlo.Run

set_option maxRecDepth 16384

noncomputable section

namespace Cert.KernelIdeal.Glue

open Cert.KernelIdeal Cert.KernelIdeal.Gen Cert.KernelIdeal.KHost
open Idealize.ShloMosaic Idealize.ShloMosaic.TcCoe Idealize.SL.Sem

variable (m : (ℓ : Loc nD τ sig) → Buf (Elt Ideal) ℓ) (ρ : Dev nD → PrngReg)

/-! The host stretch between the two regions over ANY contents `W`: what it leaves at each buffer it writes, as the
    operations' composed term over `W` at the buffers they read. -/

theorem after1_v12 (W : Valuation τ sig (Elt Ideal)) :
    StableHlo.after hostOps1 W (Proc.devRef .tc main_v12)
    = Host.scatterAdd (F := Ideal) scatter_S20000x128_S640000x1_S640000x128_1_0_0_1
        (broadcastInDim S20000x128 ![] bcast_S_S20000x128 (constant (F := Ideal) S_ .f32 0x00000000#32))
        (broadcastInDim S640000x1 ![0] bcast_S640000_S640000x1_0 (W (Proc.devRef .tc main_v1)))
        (W (Proc.devRef .tc main_v9)) := by
  after_results
theorem after1_v13 (W : Valuation τ sig (Elt Ideal)) :
    StableHlo.after hostOps1 W (Proc.devRef .tc main_v13) = row128 (W (Proc.devRef .tc main_arg12)) := by
  after_results
  rfl
theorem after1_v14 (W : Valuation τ sig (Elt Ideal)) :
    StableHlo.after hostOps1 W (Proc.devRef .tc main_v14) = row128 (W (Proc.devRef .tc main_arg14)) := by
  after_results
  rfl

/-! The contents the node kernel's region is entered with (the host stretch between the two regions, over what the
    edge kernel's region leaves), read at each array the region stages, in terms of the contents the edge kernel's
    region was entered with (`W4`) and the message array it leaves (`W5` at `main_v9`). -/

theorem W6_v12 (c : Dev nD) : W6 m ρ c (Proc.devRef .tc main_v12)
    = Host.scatterAdd (F := Ideal) scatter_S20000x128_S640000x1_S640000x128_1_0_0_1
        (broadcastInDim S20000x128 ![] bcast_S_S20000x128 (constant (F := Ideal) S_ .f32 0x00000000#32))
        (broadcastInDim S640000x1 ![0] bcast_S640000_S640000x1_0 (W4 m ρ c (Proc.devRef .tc main_v1)))
        (W5 m ρ c (Proc.devRef .tc main_v9)) :=
  (after1_v12 (W5 m ρ c)).trans (by rw [W5_of_ne m ρ c main_v1 (by decide)])
theorem W6_arg0 (c : Dev nD) : W6 m ρ c (Proc.devRef .tc main_arg0) = W4 m ρ c (Proc.devRef .tc main_arg0) := by
  refine (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact W5_of_ne m ρ c main_arg0 (by decide)
theorem W6_arg3 (c : Dev nD) : W6 m ρ c (Proc.devRef .tc main_arg3) = W4 m ρ c (Proc.devRef .tc main_arg3) := by
  refine (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact W5_of_ne m ρ c main_arg3 (by decide)
theorem W6_arg11 (c : Dev nD) : W6 m ρ c (Proc.devRef .tc main_arg11) = W4 m ρ c (Proc.devRef .tc main_arg11) := by
  refine (StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact W5_of_ne m ρ c main_arg11 (by decide)
theorem W6_arg13 (c : Dev nD) : W6 m ρ c (Proc.devRef .tc main_arg13) = W4 m ρ c (Proc.devRef .tc main_arg13) := by
  refine (StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact W5_of_ne m ρ c main_arg13 (by decide)
theorem W6_v13 (c : Dev nD) : W6 m ρ c (Proc.devRef .tc main_v13) = row128 (W4 m ρ c (Proc.devRef .tc main_arg12)) :=
  (after1_v13 (W5 m ρ c)).trans (by rw [W5_of_ne m ρ c main_arg12 (by decide)])
theorem W6_v14 (c : Dev nD) : W6 m ρ c (Proc.devRef .tc main_v14) = row128 (W4 m ρ c (Proc.devRef .tc main_arg14)) :=
  (after1_v14 (W5 m ρ c)).trans (by rw [W5_of_ne m ρ c main_arg14 (by decide)])

end Cert.KernelIdeal.Glue

end
-- ==== Proof.Take.lean ====
import proofs.«404033_j12610023981467_1_alg».proof.Proof.KHost
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Take

open Cert.KernelIdeal Cert.KernelIdeal.Gen Cert.KernelIdeal.KHost
open Idealize.ShloMosaic Idealize.ShloMosaic.TcCoe Idealize.ShloMosaic.ValueIdx

/-- A left fold by `and` over one-bit words that are all 1, started at 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- A signed word in [0, 20000) is not below zero, is at least zero and is at most 19999. -/
theorem word_facts (a : BitVec 32) (h0 : 0 ≤ a.toInt) (h1 : a.toInt < 20000) :
    IntOp.cmpi .slt a 0#32 = 0#1 ∧ IntOp.cmpi .sge a 0#32 = 1#1 ∧ IntOp.cmpi .sle a 19999#32 = 1#1 := by
  have e0 : (0#32 : BitVec 32).toInt = 0 := by decide
  have e1 : (19999#32 : BitVec 32).toInt = 19999 := by decide
  refine ⟨?_, ?_, ?_⟩
  · show BitVec.ofBool (a.slt 0#32) = 0#1
    rw [BitVec.slt, e0, decide_eq_false (by omega)]; rfl
  · show BitVec.ofBool ((0#32 : BitVec 32).sle a) = 1#1
    rw [BitVec.sle, e0, decide_eq_true (by omega)]; rfl
  · show BitVec.ofBool (a.sle 19999#32) = 1#1
    rw [BitVec.sle, e1, decide_eq_true (by omega)]; rfl

/-- An index that is not negative is left as it is by the wrap. -/
theorem wrap_apply_of_nonneg (r : IVec S640000 32) (e : S640000.Idx) (h0 : 0 ≤ (r e).toInt) (h1 : (r e).toInt < 20000) :
    wrap r e = r e := by
  show Scalar.select (IntOp.cmpi .slt (r e) 0#32) _ (r e) = r e
  rw [(word_facts (r e) h0 h1).1, select_zero]

/-- The column of start indices at row `p` is the wrapped index of edge `p`. -/
theorem gidx_apply (r : IVec S640000 32) (i : S640000x1.Idx) : gidx r i = wrap r (ix1 (i 0)) := by
  unfold gidx
  generalize wrap r = y
  exact broadcastInDim_apply _ bcast_S640000_S640000x1_0 y i (ix1 (i 0)) (fun a => match a with
    | ⟨0, _⟩ => by show (i 0).val = if (640000 : Nat) = 1 then 0 else (i 0).val; rw [if_neg (by decide)])

/-- Where every index lies in [0, 20000) the range mask is 1 at every edge. -/
theorem inRange_of_inrange (r : IVec S640000 32)
    (hr : ∀ e : S640000.Idx, 0 ≤ (r e).toInt ∧ (r e).toInt < 20000) (e : S640000.Idx) : inRange r e = 1#1 := by
  unfold inRange
  rw [Host.reduce_eq_foldl]
  refine foldl_andi_one _ _ (fun i _ => ?_)
  have hg : gidx r i = r (ix1 (i 0)) := by
    rw [gidx_apply, wrap_apply_of_nonneg r _ (hr _).1 (hr _).2]
  obtain ⟨_, h2, h3⟩ := word_facts (r (ix1 (i 0))) (hr _).1 (hr _).2
  show IntOp.andi (IntOp.cmpi .sge (gidx r i) 0#32) (IntOp.cmpi .sle (gidx r i) 19999#32) = 1#1
  rw [hg, h2, h3]; decide

/-- Where every index lies in [0, 20000) nothing is wrapped and nothing is filled: the program's take is the plain lookup. -/
theorem takeFill_of_inrange (h : FVec Ideal S20000x128 .f32) (r : IVec S640000 32)
    (hr : ∀ e : S640000.Idx, 0 ≤ (r e).toInt ∧ (r e).toInt < 20000) : takeFill h r = takeK h r := by
  funext i
  unfold takeFill
  rw [select_apply]
  have hm : ∀ y : IVec S640000 1,
      broadcastInDim S640000x128 ![0] bcast_S640000_S640000x128_0 y i = y (ix1 (i 0)) := fun y =>
    broadcastInDim_apply _ bcast_S640000_S640000x128_0 y i (ix1 (i 0)) (fun a => match a with
      | ⟨0, _⟩ => by show (i 0).val = if (640000 : Nat) = 1 then 0 else (i 0).val; rw [if_neg (by decide)])
  rw [hm, inRange_of_inrange r hr, select_one]

/-- Row 0 of the edge list at edge `e` is the entry (0, e): the reshape keeps the row-major position, the slice starts at row 0. -/
theorem rowI_apply (EI : IVec S2x640000 32) (e : S640000.Idx) : rowI EI e = EI (ix2 (0 : Fin 2) (e 0)) := by
  unfold rowI
  refine (shapeCast_apply _ shapeCasts_S1x640000_S640000 e (ix2 (0 : Fin 1) (e 0)) ?_).trans ?_
  · rw [Shape.rowMajor_val_two, Shape.rowMajor_val_one]
    show 0 * 640000 + (e 0).val = (e 0).val
    omega
  · exact extractStridedSlice_apply ![0, 0] EI slices_S2x640000_S1x640000_0_0 _ (ix2 (0 : Fin 2) (e 0)) (fun a => match a with
      | ⟨0, _⟩ => by show (0 : Nat) = 0 + 0; omega
      | ⟨1, _⟩ => by show (e 0).val = 0 + (e 0).val; omega)

/-- Row 1 of the edge list at edge `e` is the entry (1, e). -/
theorem colI_apply (EI : IVec S2x640000 32) (e : S640000.Idx) : colI EI e = EI (ix2 (1 : Fin 2) (e 0)) := by
  unfold colI
  refine (shapeCast_apply _ shapeCasts_S1x640000_S640000 e (ix2 (0 : Fin 1) (e 0)) ?_).trans ?_
  · rw [Shape.rowMajor_val_two, Shape.rowMajor_val_one]
    show 0 * 640000 + (e 0).val = (e 0).val
    omega
  · exact extractStridedSlice_apply ![1, 0] EI slices_S2x640000_S1x640000_1_0 _ (ix2 (1 : Fin 2) (e 0)) (fun a => match a with
      | ⟨0, _⟩ => by show (1 : Nat) = 1 + 0; omega
      | ⟨1, _⟩ => by show (e 0).val = 0 + (e 0).val; omega)

/-- The two rows of an edge list whose entries all lie in [0, 20000) are index vectors in that range. -/
theorem rowI_inrange (EI : IVec S2x640000 32) (hE : ∀ i : S2x640000.Idx, 0 ≤ (EI i).toInt ∧ (EI i).toInt < 20000)
    (e : S640000.Idx) : 0 ≤ (rowI EI e).toInt ∧ (rowI EI e).toInt < 20000 := by
  rw [rowI_apply]; exact hE _

theorem colI_inrange (EI : IVec S2x640000 32) (hE : ∀ i : S2x640000.Idx, 0 ≤ (EI i).toInt ∧ (EI i).toInt < 20000)
    (e : S640000.Idx) : 0 ≤ (colI EI e).toInt ∧ (colI EI e).toInt < 20000 := by
  rw [colI_apply]; exact hE _

end Cert.KernelIdeal.Take

end
-- ==== Proof.KernelValue.lean ====
/- The kernel program's result array as the specification's layer of the launch arrays: the node kernel's array over
   what the host stretch between the regions computes from the edge kernel's array, that over what the host stretches
   before it compute from the arguments; under the index range the program's take is the plain row lookup. -/
import proofs.«404033_j12610023981467_1_alg».proof.Proof.Blocks0
import proofs.«404033_j12610023981467_1_alg».proof.Proof.Blocks1
import proofs.«404033_j12610023981467_1_alg».proof.Proof.Glue0
import proofs.«404033_j12610023981467_1_alg».proof.Proof.Glue1
import proofs.«404033_j12610023981467_1_alg».proof.Proof.Take

set_option maxRecDepth 16384

noncomputable section

namespace Cert.KernelIdeal.KValue

open Cert.KernelIdeal Cert.KernelIdeal.Gen Cert.KernelIdeal.KHost Cert.KernelIdeal.Glue
open Idealize.ShloMosaic Idealize.ShloMosaic.TcCoe Idealize.SL.Sem Idealize.ShloMosaic.ValueIdx

/-- A bias vector laid out as a one-row matrix, read at column j. -/
theorem row128_apply (b : FVec Ideal S128 .f32) (j : Fin 128) : row128 b (ix2 0 j) = b (ix1 j) := by
  unfold row128
  exact shapeCast_apply b shapeCasts_S128_S1x128 (ix2 0 j) (ix1 j)
    (by rewrite [Shape.rowMajor_val_two, Shape.rowMajor_val_one]; show j.val = 0 * 128 + j.val; omega)

/-- A one-entry vector laid out as a 1 × 1 matrix, read at its entry. -/
theorem row1_apply (b : FVec Ideal S1 .f32) : row1 b (ix2 0 0) = b (ix1 0) := by
  unfold row1
  exact shapeCast_apply b shapeCasts_S1_S1x1 (ix2 0 0) (ix1 0)
    (by rewrite [Shape.rowMajor_val_two, Shape.rowMajor_val_one]; rfl)

/-- The edge network's weights with their biases laid out as rows are the same weights. -/
theorem edgeW2_rows (W1 : FVec Ideal S272x128 .f32) (b1 : FVec Ideal S128 .f32) (W2 : FVec Ideal S128x128 .f32)
    (b2 : FVec Ideal S128 .f32) (Wa : FVec Ideal S128x1 .f32) (ba : FVec Ideal S1 .f32) :
    Spec.edgeW2 W1 (row128 b1) W2 (row128 b2) Wa (row1 ba) = Spec.edgeW1 W1 b1 W2 b2 Wa ba := by
  unfold Spec.edgeW2 Spec.edgeW1
  congr 1
  · exact funext fun j => row128_apply b1 j
  · exact funext fun j => row128_apply b2 j
  · exact row1_apply ba

/-- The node network's weights with their biases laid out as rows are the same weights. -/
theorem nodeW2_rows (W1 : FVec Ideal S256x128 .f32) (b1 : FVec Ideal S128 .f32) (W2 : FVec Ideal S128x128 .f32)
    (b2 : FVec Ideal S128 .f32) :
    Spec.nodeW2 W1 (row128 b1) W2 (row128 b2) = Spec.nodeW1 W1 b1 W2 b2 := by
  unfold Spec.nodeW2 Spec.nodeW1
  congr 1
  · exact funext fun j => row128_apply b1 j
  · exact funext fun j => row128_apply b2 j

variable (m : (ℓ : Loc nD τ sig) → Buf (Elt Ideal) ℓ) (ρ : Dev nD → PrngReg)

/-- The message array the edge kernel's region leaves, from the launch arrays. -/
theorem messages_eq (c : Dev nD)
    (hE : ∀ i : S2x640000.Idx, 0 ≤ ((m ((c : Thread nD τ).loc main_arg1)) i).toInt ∧ ((m ((c : Thread nD τ).loc main_arg1)) i).toInt < 20000) :
    (W5 m ρ c (Proc.devRef .tc main_v9) : Spec.Arr 640000 128)
      = Spec.edgeMsg (takeK (m ((c : Thread nD τ).loc main_arg0)) (rowI (m ((c : Thread nD τ).loc main_arg1)))) (takeK (m ((c : Thread nD τ).loc main_arg0)) (colI (m ((c : Thread nD τ).loc main_arg1)))) (m ((c : Thread nD τ).loc main_arg2)) (m ((c : Thread nD τ).loc main_arg4))
          (Spec.edgeW1 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W5_arr m ρ c 10).trans ?_
  refine (Blocks.arr0 (V4 m ρ) c).trans ?_
  show Spec.edgeMsg (W4 m ρ c (Proc.devRef .tc main_v4)) (W4 m ρ c (Proc.devRef .tc main_v5))
      (W4 m ρ c (Proc.devRef .tc main_arg2)) (W4 m ρ c (Proc.devRef .tc main_arg4))
      (Spec.edgeW2 (W4 m ρ c (Proc.devRef .tc main_arg5)) (W4 m ρ c (Proc.devRef .tc main_v6))
        (W4 m ρ c (Proc.devRef .tc main_arg7)) (W4 m ρ c (Proc.devRef .tc main_v7))
        (W4 m ρ c (Proc.devRef .tc main_arg9)) (W4 m ρ c (Proc.devRef .tc main_v8))) = _
  rw [W4_v4, W4_v5, W4_arg2, W4_arg4, W4_arg5, W4_v6, W4_arg7, W4_v7, W4_arg9, W4_v8,
    Take.takeFill_of_inrange _ _ (Take.rowI_inrange _ hE), Take.takeFill_of_inrange _ _ (Take.colI_inrange _ hE),
    edgeW2_rows]

/-- The program's result array is the layer of the launch arrays. -/
theorem result_eq (c : Dev nD)
    (hE : ∀ i : S2x640000.Idx, 0 ≤ ((m ((c : Thread nD τ).loc main_arg1)) i).toInt ∧ ((m ((c : Thread nD τ).loc main_arg1)) i).toInt < 20000) :
    (W7 m ρ c (Proc.devRef .tc main_v15) : Spec.Arr 20000 128)
      = Spec.layer (aggK (m ((c : Thread nD τ).loc main_arg1))) (m ((c : Thread nD τ).loc main_arg0)) (takeK (m ((c : Thread nD τ).loc main_arg0)) (rowI (m ((c : Thread nD τ).loc main_arg1)))) (takeK (m ((c : Thread nD τ).loc main_arg0)) (colI (m ((c : Thread nD τ).loc main_arg1))))
          (m ((c : Thread nD τ).loc main_arg2)) (m ((c : Thread nD τ).loc main_arg3)) (m ((c : Thread nD τ).loc main_arg4))
          (Spec.edgeW1 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (Spec.nodeW1 (m ((c : Thread nD τ).loc main_arg11)) (m ((c : Thread nD τ).loc main_arg12)) (m ((c : Thread nD τ).loc main_arg13)) (m ((c : Thread nD τ).loc main_arg14))) := by
  refine (W7_arr m ρ c 7).trans ?_
  refine (Blocks.Node.arr1 (V6 m ρ) c).trans ?_
  show Spec.nodeOut (W6 m ρ c (Proc.devRef .tc main_arg0)) (W6 m ρ c (Proc.devRef .tc main_v12))
      (W6 m ρ c (Proc.devRef .tc main_arg3))
      (Spec.nodeW2 (W6 m ρ c (Proc.devRef .tc main_arg11)) (W6 m ρ c (Proc.devRef .tc main_v13))
        (W6 m ρ c (Proc.devRef .tc main_arg13)) (W6 m ρ c (Proc.devRef .tc main_v14))) = _
  rw [W6_arg0, W6_v12, W6_arg3, W6_arg11, W6_v13, W6_arg13, W6_v14,
    W4_arg0, W4_v1, W4_arg3, W4_arg11, W4_arg12, W4_arg13, W4_arg14, nodeW2_rows,
    messages_eq m ρ c hE]
  rfl

end Cert.KernelIdeal.KValue

end
-- ==== Proof.PreDecode.lean ====
import proofs.«404033_j12610023981467_1_alg».proof.Defs
import proofs.«404033_j12610023981467_1_alg».proof.Proof.Gen.KernelIdeal
import proofs.«404033_j12610023981467_1_alg».proof.Proof.Gen.Pre_finite_inputs
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.TcCoe Idealize.SL.Sem Idealize.ShloMosaic.ValueIdx

/-- The scalar shape has one index. -/
instance : Subsingleton Cert.Pre_finite_inputs.S_.Idx := ⟨fun a b => funext fun d => d.elim0⟩

/-- A word that is signed at least 0 and signed below 20000 lies in [0, 20000). -/
theorem bounds_of_cmpi (a : BitVec 32)
    (h : IntOp.andi (IntOp.cmpi .sge a 0#32) (IntOp.cmpi .slt a 20000#32) = 1#1) : 0 ≤ a.toInt ∧ a.toInt < 20000 := by
  obtain ⟨h1, h2⟩ := IntOp.andi_eq_one.1 h
  have e0 : (0#32 : BitVec 32).toInt = 0 := by decide
  have e1 : (20000#32 : BitVec 32).toInt = 20000 := by decide
  have h1' : BitVec.ofBool ((0#32 : BitVec 32).sle a) = 1#1 := h1
  have h2' : BitVec.ofBool (a.slt 20000#32) = 1#1 := h2
  rw [StableHlo.Predicate.ofBool_eq_one_iff, BitVec.sle, decide_eq_true_eq, e0] at h1'
  rw [StableHlo.Predicate.ofBool_eq_one_iff, BitVec.slt, decide_eq_true_eq, e1] at h2'
  exact ⟨h1', h2'⟩

/-- The last part of the predicate: if it is 1, its last conjunct, the range test over the whole edge list, holds at every entry. -/
theorem part4_inrange (EI : IVec Cert.Pre_finite_inputs.S2x640000 32) (a b : IVec Cert.Pre_finite_inputs.S_ 1)
    (h : Cert.Pre_finite_inputs.fn_part4 (F := Ideal) EI a b ix0 = 1#1) (i : Cert.Pre_finite_inputs.S2x640000.Idx) :
    0 ≤ (EI i).toInt ∧ (EI i).toInt < 20000 := by
  unfold Cert.Pre_finite_inputs.fn_part4 at h
  have h2 := (IntOp.andi_eq_one.1 h).2
  exact bounds_of_cmpi (EI i) (Host.reduce_andi_all _ _ _ _ _ h2 i)

/-- The precondition's last conjunct read back: every entry of the edge list, read signed, lies in [0, 20000). -/
theorem edge_index_inrange (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x640000.Idx) :
    0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 20000 := by
  have h := congrFun (hpre c) ix0
  exact part4_inrange _ _ _ h i

end Cert.PreDecode

end
-- ==== Proof.RefEdge.lean ====
import proofs.«404033_j12610023981467_1_alg».proof.Proof.RefRead
import proofs.«404033_j12610023981467_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open scoped BigOperators

namespace Edge

/-! ## Scalars -/

/-- The pattern of 1.0 denotes the real one. -/
theorem ofBits_one : Ideal.ofBits .f32 0x3F800000#32 = 1 := by
  simp [Ideal.ofBits, Ideal.ieee, -EReal.coe_mul]; norm_num

/-- 1 / (1 + e^(-t)), with both ones spelt by their pattern, is the logistic function. -/
theorem logistic_eq (t : EReal) :
    Ideal.div (Ideal.ofBits .f32 0x3F800000#32) (Ideal.ofBits .f32 0x3F800000#32 + Ideal.exp (-t)) = Ideal.logistic t := by
  rw [ofBits_one]; rfl

/-- t · (1 / (1 + e^(-t))) is silu t. -/
theorem silu_eq (t : EReal) :
    t * Ideal.div (Ideal.ofBits .f32 0x3F800000#32) (Ideal.ofBits .f32 0x3F800000#32 + Ideal.exp (-t)) = Spec.silu t := by
  rw [logistic_eq]; rfl

/-! ## The joined row [x, y, a] -/

/-- Row e of the three arrays joined along the columns, at column q, is the concatenated row of the specification. -/
theorem cat_apply (y0 y1 : (⟨S640000x128, .f32⟩ : BufTy).Contents (Elt Ideal)) (y2 : (⟨S640000x16, .f32⟩ : BufTy).Contents (Elt Ideal))
    (h : Shape.Concatenates [S640000x128, S640000x128, S640000x16] S640000x272 1) (e : Fin 640000) (q : Fin 272) :
    concatenate S640000x272 1 [⟨S640000x128, y0⟩, ⟨S640000x128, y1⟩, ⟨S640000x16, y2⟩] h (ix2 e q)
      = Spec.cat3 (Spec.rowOf y0 e) (Spec.rowOf y1 e) (Spec.rowOf y2 e) q := by
  unfold Spec.cat3
  by_cases h0 : q.val < 128
  · rw [dif_pos h0]
    exact concatenate_apply_piece (t := S640000x272) 1 [⟨S640000x128, y0⟩, ⟨S640000x128, y1⟩, ⟨S640000x16, y2⟩] h (ix2 e q) 0 (by simp) S640000x128 y0 rfl rfl 0 rfl (ix2 e ⟨q.val, h0⟩)
      (fun b hb => match b, hb with | ⟨0, _⟩, _ => rfl | ⟨1, _⟩, hb => absurd rfl hb) (by show 0 + q.val = q.val; omega)
  · rw [dif_neg h0]
    by_cases h1 : q.val < 256
    · rw [dif_pos h1]
      exact concatenate_apply_piece (t := S640000x272) 1 [⟨S640000x128, y0⟩, ⟨S640000x128, y1⟩, ⟨S640000x16, y2⟩] h (ix2 e q) 1 (by simp) S640000x128 y1 rfl rfl 128 rfl (ix2 e ⟨q.val - 128, by omega⟩)
        (fun b hb => match b, hb with | ⟨0, _⟩, _ => rfl | ⟨1, _⟩, hb => absurd rfl hb) (by show 128 + (q.val - 128) = q.val; omega)
    · rw [dif_neg h1]
      exact concatenate_apply_piece (t := S640000x272) 1 [⟨S640000x128, y0⟩, ⟨S640000x128, y1⟩, ⟨S640000x16, y2⟩] h (ix2 e q) 2 (by simp) S640000x16 y2 rfl rfl 256 rfl (ix2 e ⟨q.val - 256, by omega⟩)
        (fun b hb => match b, hb with | ⟨0, _⟩, _ => rfl | ⟨1, _⟩, hb => absurd rfl hb) (by show 256 + (q.val - 256) = q.val; omega)

/-! ## The specification's layers over the weights read from the arrays -/

section Layers

variable (x0 : (⟨S20000x128, .f32⟩ : BufTy).Contents (Elt Ideal)) (x1 : (⟨S2x640000, .i32⟩ : BufTy).Contents (Elt Ideal)) (x2 : (⟨S640000x16, .f32⟩ : BufTy).Contents (Elt Ideal)) (x4 : (⟨S640000x1, .f32⟩ : BufTy).Contents (Elt Ideal)) (x5 : (⟨S272x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal))

/-- The two gathered endpoint rows and the attribute row of edge e. -/
local notation "RX" => Spec.rowOf (val_main_v10 (F := Ideal) x0 x1)
local notation "RY" => Spec.rowOf (val_main_v17 (F := Ideal) x0 x1)
local notation "RA" => Spec.rowOf (x2 : Spec.Arr 640000 16)
local notation "WW" => Spec.edgeW1 x5 x6 x7 x8 x9 x10

theorem edgeHid1_w (x y : Fin 128 → EReal) (a : Fin 16 → EReal) (k : Fin 128) :
    Spec.edgeHid1 x y a WW k = Spec.silu ((∑ q : Fin 272, Spec.cat3 x y a q * x5 (ix2 q k)) + x6 (ix1 k)) := rfl

theorem edgeHid2_w (x y : Fin 128 → EReal) (a : Fin 16 → EReal) (k : Fin 128) :
    Spec.edgeHid2 x y a WW k = Spec.silu ((∑ q : Fin 128, Spec.edgeHid1 x y a WW q * x7 (ix2 q k)) + x8 (ix1 k)) := rfl

theorem edgeGate_w (x y : Fin 128 → EReal) (a : Fin 16 → EReal) :
    Spec.edgeGate x y a WW = Ideal.logistic ((∑ q : Fin 128, Spec.edgeHid2 x y a WW q * x9 (ix2 q 0)) + x10 (ix1 0)) := rfl

/-! ## The reference, level by level, at row e -/

/-- The first dense layer before its activation. -/
theorem pre1_apply (e : Fin 640000) (k : Fin 128) :
    val_main_v22 (F := Ideal) x0 x1 x2 x5 x6 (ix2 e k)
      = (∑ q : Fin 272, Spec.cat3 (RX e) (RY e) (RA e) q * x5 (ix2 q k)) + x6 (ix1 k) := by
  rw [val_main_v22_apply, val_main_v19_apply, val_main_v21_apply, val_main_v20_apply]
  have el : ∀ q : Fin 272, lidx_main_v19 (ix2 e k) q = ix2 e q := fun q =>
    funext fun a => Fin.ext (by match a with | ⟨0, _⟩ => rfl | ⟨1, _⟩ => rfl)
  have er : ∀ q : Fin 272, ridx_main_v19 (ix2 e k) q = ix2 q k := fun q =>
    funext fun a => Fin.ext (by match a with | ⟨0, _⟩ => rfl | ⟨1, _⟩ => rfl)
  have eb : idx_main_v20 (idx_main_v21 (ix2 e k)) = ix1 k :=
    funext fun a => Fin.ext (by match a with | ⟨0, _⟩ => rfl)
  rw [eb, Ideal.addf_def]
  refine congrArg (· + x6 (ix1 k)) (Finset.sum_congr rfl fun q _ => ?_)
  rw [el q, er q]
  unfold val_main_v18
  rw [cat_apply]

/-- The first hidden layer. -/
theorem hid1_apply (e : Fin 640000) (k : Fin 128) :
    val_main_v23 (F := Ideal) x0 x1 x2 x5 x6 (ix2 e k) = Spec.edgeHid1 (RX e) (RY e) (RA e) WW k := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, pre1_apply, edgeHid1_w]
  simp only [Ideal.hostNegf_def, Ideal.negf_def, Ideal.hostUnary_exp_def, Ideal.addf_def, Ideal.hostDivf_def,
    Ideal.mulf_def, Ideal.ofBits_def]
  exact silu_eq _

/-- The second dense layer before its activation. -/
theorem pre2_apply (e : Fin 640000) (k : Fin 128) :
    val_main_v27 (F := Ideal) x0 x1 x2 x5 x6 x7 x8 (ix2 e k)
      = (∑ q : Fin 128, Spec.edgeHid1 (RX e) (RY e) (RA e) WW q * x7 (ix2 q k)) + x8 (ix1 k) := by
  rw [val_main_v27_apply, val_main_v24_apply, val_main_v26_apply, val_main_v25_apply]
  have el : ∀ q : Fin 128, lidx_main_v24 (ix2 e k) q = ix2 e q := fun q =>
    funext fun a => Fin.ext (by match a with | ⟨0, _⟩ => rfl | ⟨1, _⟩ => rfl)
  have er : ∀ q : Fin 128, ridx_main_v24 (ix2 e k) q = ix2 q k := fun q =>
    funext fun a => Fin.ext (by match a with | ⟨0, _⟩ => rfl | ⟨1, _⟩ => rfl)
  have eb : idx_main_v25 (idx_main_v26 (ix2 e k)) = ix1 k :=
    funext fun a => Fin.ext (by match a with | ⟨0, _⟩ => rfl)
  rw [eb, Ideal.addf_def]
  refine congrArg (· + x8 (ix1 k)) (Finset.sum_congr rfl fun q _ => ?_)
  rw [el q, er q, hid1_apply x0 x1 x2 x5 x6 x7 x8 x9 x10]

/-- The second hidden layer. -/
theorem hid2_apply (e : Fin 640000) (k : Fin 128) :
    val_main_v28 (F := Ideal) x0 x1 x2 x5 x6 x7 x8 (ix2 e k) = Spec.edgeHid2 (RX e) (RY e) (RA e) WW k := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, pre2_apply x0 x1 x2 x5 x6 x7 x8 x9 x10, edgeHid2_w]
  simp only [Ideal.hostNegf_def, Ideal.negf_def, Ideal.hostUnary_exp_def, Ideal.addf_def, Ideal.hostDivf_def,
    Ideal.mulf_def, Ideal.ofBits_def]
  exact silu_eq _

/-- The attention gate. -/
theorem gate_apply (e : Fin 640000) :
    val_main_v38 (F := Ideal) x0 x1 x2 x5 x6 x7 x8 x9 x10 (ix2 e 0) = Spec.edgeGate (RX e) (RY e) (RA e) WW := by
  rw [val_main_v38_apply, val_main_v37_apply, val_main_cst_3_apply, val_main_v36_apply, val_main_v35_apply,
    val_main_cst_apply, val_main_v34_apply, val_main_v33_apply, val_main_v32_apply, val_main_v29_apply,
    val_main_v31_apply, val_main_v30_apply, edgeGate_w]
  have el : ∀ q : Fin 128, lidx_main_v29 (ix2 e (0 : Fin 1)) q = ix2 e q := fun q =>
    funext fun a => Fin.ext (by match a with | ⟨0, _⟩ => rfl | ⟨1, _⟩ => rfl)
  have er : ∀ q : Fin 128, ridx_main_v29 (ix2 e (0 : Fin 1)) q = ix2 q 0 := fun q =>
    funext fun a => Fin.ext (by match a with | ⟨0, _⟩ => rfl | ⟨1, _⟩ => rfl)
  have eb : idx_main_v30 (idx_main_v31 (ix2 e (0 : Fin 1))) = ix1 0 :=
    funext fun a => Fin.ext (by match a with | ⟨0, _⟩ => rfl)
  have es : (∑ q : Fin 128, val_main_v28 (F := Ideal) x0 x1 x2 x5 x6 x7 x8 (lidx_main_v29 (ix2 e (0 : Fin 1)) q) * x9 (ridx_main_v29 (ix2 e (0 : Fin 1)) q))
      = ∑ q : Fin 128, Spec.edgeHid2 (RX e) (RY e) (RA e) WW q * x9 (ix2 q 0) :=
    Finset.sum_congr rfl fun q _ => by rw [el q, er q, hid2_apply x0 x1 x2 x5 x6 x7 x8 x9 x10]
  rw [es, eb]
  simp only [Ideal.hostNegf_def, Ideal.negf_def, Ideal.hostUnary_exp_def, Ideal.addf_def, Ideal.hostDivf_def,
    Ideal.ofBits_def]
  exact logistic_eq _

/-- The message of edge e, coordinate j. -/
theorem msg_apply (e : Fin 640000) (j : Fin 128) :
    val_main_v42 (F := Ideal) x0 x1 x2 x4 x5 x6 x7 x8 x9 x10 (ix2 e j)
      = Spec.edgeRow (RX e) (RY e) (RA e) (x4 (ix2 e 0)) WW j := by
  rw [val_main_v42_apply, val_main_v40_apply, val_main_v39_apply, val_main_v41_apply]
  have eg : idx_main_v39 (ix2 e j) = ix2 e 0 :=
    funext fun a => Fin.ext (by match a with | ⟨0, _⟩ => rfl | ⟨1, _⟩ => rfl)
  have em : idx_main_v41 (ix2 e j) = ix2 e 0 :=
    funext fun a => Fin.ext (by match a with | ⟨0, _⟩ => rfl | ⟨1, _⟩ => rfl)
  rw [eg, em, hid2_apply x0 x1 x2 x5 x6 x7 x8 x9 x10, gate_apply]
  simp only [Ideal.mulf_def]
  rfl

end Layers

end Edge

/-- The reference's message array: row e is the message of edge e, computed from row e of the two gathered endpoint
    arrays, of the edge attributes and of the edge mask. -/
theorem edge_eq (x0 : (⟨S20000x128, .f32⟩ : BufTy).Contents (Elt Ideal)) (x1 : (⟨S2x640000, .i32⟩ : BufTy).Contents (Elt Ideal)) (x2 : (⟨S640000x16, .f32⟩ : BufTy).Contents (Elt Ideal)) (x4 : (⟨S640000x1, .f32⟩ : BufTy).Contents (Elt Ideal)) (x5 : (⟨S272x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) :
    (val_main_v42 (F := Ideal) x0 x1 x2 x4 x5 x6 x7 x8 x9 x10 : Spec.Arr 640000 128)
      = Spec.edgeMsg (val_main_v10 (F := Ideal) x0 x1) (val_main_v17 (F := Ideal) x0 x1) x2 x4 (Spec.edgeW1 x5 x6 x7 x8 x9 x10) := by
  funext i
  obtain ⟨e, j, rfl⟩ : ∃ (e : Fin 640000) (j : Fin 128), i = ix2 e j := ⟨_, _, ValueIdx.eq_ix2 i⟩
  rw [Spec.edgeMsg_apply]
  exact Edge.msg_apply x0 x1 x2 x4 x5 x6 x7 x8 x9 x10 e j

end Cert.ReferenceIdeal.RefValue

end
-- ==== Proof.RefNode.lean ====
import proofs.«404033_j12610023981467_1_alg».proof.Proof.RefRead
import proofs.«404033_j12610023981467_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open scoped BigOperators

namespace Node

section Levels

variable (x0 : (⟨S20000x128, .f32⟩ : BufTy).Contents (Elt Ideal)) (x1 : (⟨S2x640000, .i32⟩ : BufTy).Contents (Elt Ideal)) (x2 : (⟨S640000x16, .f32⟩ : BufTy).Contents (Elt Ideal)) (x3 : (⟨S20000x1, .f32⟩ : BufTy).Contents (Elt Ideal)) (x4 : (⟨S640000x1, .f32⟩ : BufTy).Contents (Elt Ideal)) (x5 : (⟨S272x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))

/-- The joined array [x, g] at row v, column q, is the concatenated row of the two rows. -/
theorem v46_at (v : Fin 20000) (q : Fin 256) :
    val_main_v46 (F := Ideal) x0 x1 x2 x4 x5 x6 x7 x8 x9 x10 (ix2 v q)
      = Spec.cat2 (Spec.rowOf x0 v) (Spec.rowOf (val_main_v45 (F := Ideal) x0 x1 x2 x4 x5 x6 x7 x8 x9 x10) v) q := by
  unfold val_main_v46
  generalize val_main_v45 (F := Ideal) x0 x1 x2 x4 x5 x6 x7 x8 x9 x10 = g
  unfold Spec.cat2 Spec.rowOf
  by_cases hq : q.val < 128
  · rw [dif_pos hq]
    exact concatenate_pair_apply_left _ x0 g _ (ix2 v q) rfl (ix2 v ⟨q.val, hq⟩)
      (fun b => match b with | ⟨0, _⟩ => rfl | ⟨1, _⟩ => rfl)
  · rw [dif_neg hq]
    exact concatenate_pair_apply_right _ x0 g _ (ix2 v q) rfl rfl (ix2 v ⟨q.val - 128, by omega⟩)
      (fun b => match b with | ⟨0, _⟩ => fun _ => rfl | ⟨1, _⟩ => fun h => absurd rfl h)
      (by show q.val - 128 + 128 = q.val; omega)

/-- The first dense layer before its activation: the concatenated row times the first weight matrix, plus the bias. -/
theorem v50_at (v : Fin 20000) (k : Fin 128) :
    val_main_v50 (F := Ideal) x0 x1 x2 x4 x5 x6 x7 x8 x9 x10 x11 x12 (ix2 v k)
      = (∑ q : Fin 256, Spec.cat2 (Spec.rowOf x0 v) (Spec.rowOf (val_main_v45 (F := Ideal) x0 x1 x2 x4 x5 x6 x7 x8 x9 x10) v) q * x11 (ix2 q k)) + x12 (ix1 k) := by
  have e1 : ∀ q : Fin 256, lidx_main_v47 (ix2 v k) q = ix2 v q := fun q =>
    funext fun a => Fin.ext (by match a with | ⟨0, _⟩ => rfl | ⟨1, _⟩ => rfl)
  have e2 : ∀ q : Fin 256, ridx_main_v47 (ix2 v k) q = ix2 q k := fun q =>
    funext fun a => Fin.ext (by match a with | ⟨0, _⟩ => rfl | ⟨1, _⟩ => rfl)
  have e3 : idx_main_v48 (idx_main_v49 (ix2 v k)) = ix1 k :=
    funext fun a => Fin.ext (by match a with | ⟨0, _⟩ => rfl)
  rw [val_main_v50_apply, val_main_v47_apply, val_main_v49_apply, val_main_v48_apply, Ideal.addf_def, e3]
  congr 1
  refine Finset.sum_congr rfl fun q _ => ?_
  rw [e1, e2, v46_at]

/-- The hidden layer: t · σ(t) of the first dense layer, σ(t) = 1 / (1 + exp (-t)). -/
theorem v51_at (v : Fin 20000) (k : Fin 128) :
    val_main_v51 (F := Ideal) x0 x1 x2 x4 x5 x6 x7 x8 x9 x10 x11 x12 (ix2 v k)
      = Spec.nodeHid (Spec.rowOf x0 v) (Spec.rowOf (val_main_v45 (F := Ideal) x0 x1 x2 x4 x5 x6 x7 x8 x9 x10) v) (Spec.nodeW1 x11 x12 x13 x14) k := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, v50_at]
  simp only [Ideal.hostNegf_def, Ideal.negf_def, Ideal.hostUnary_exp_def, Ideal.addf_def, Ideal.hostDivf_def,
    Ideal.mulf_def, Ideal.ofBits_def]
  rw [show Ideal.ofBits .f32 0x3F800000#32 = 1 from IdealRules.sign_bit.ideal_onePat .f32]
  rfl

/-- The second dense layer: the hidden row times the second weight matrix, plus the bias. -/
theorem v55_at (v : Fin 20000) (j : Fin 128) :
    val_main_v55 (F := Ideal) x0 x1 x2 x4 x5 x6 x7 x8 x9 x10 x11 x12 x13 x14 (ix2 v j)
      = (∑ k : Fin 128, Spec.nodeHid (Spec.rowOf x0 v) (Spec.rowOf (val_main_v45 (F := Ideal) x0 x1 x2 x4 x5 x6 x7 x8 x9 x10) v) (Spec.nodeW1 x11 x12 x13 x14) k * x13 (ix2 k j))
          + x14 (ix1 j) := by
  have e1 : ∀ k : Fin 128, lidx_main_v52 (ix2 v j) k = ix2 v k := fun k =>
    funext fun a => Fin.ext (by match a with | ⟨0, _⟩ => rfl | ⟨1, _⟩ => rfl)
  have e2 : ∀ k : Fin 128, ridx_main_v52 (ix2 v j) k = ix2 k j := fun k =>
    funext fun a => Fin.ext (by match a with | ⟨0, _⟩ => rfl | ⟨1, _⟩ => rfl)
  have e3 : idx_main_v53 (idx_main_v54 (ix2 v j)) = ix1 j :=
    funext fun a => Fin.ext (by match a with | ⟨0, _⟩ => rfl)
  rw [val_main_v55_apply, val_main_v52_apply, val_main_v54_apply, val_main_v53_apply, Ideal.addf_def, e3]
  congr 1
  refine Finset.sum_congr rfl fun k _ => ?_
  rw [e1, e2, v51_at]

end Levels

end Node

open Node

/-- The reference's result: row v is the update of node v, computed from row v of the node features, of the aggregated
    messages and of the flags. -/
theorem node_eq (x0 : (⟨S20000x128, .f32⟩ : BufTy).Contents (Elt Ideal)) (x1 : (⟨S2x640000, .i32⟩ : BufTy).Contents (Elt Ideal)) (x2 : (⟨S640000x16, .f32⟩ : BufTy).Contents (Elt Ideal)) (x3 : (⟨S20000x1, .f32⟩ : BufTy).Contents (Elt Ideal)) (x4 : (⟨S640000x1, .f32⟩ : BufTy).Contents (Elt Ideal)) (x5 : (⟨S272x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    (val_main_v58 (F := Ideal) x0 x1 x2 x3 x4 x5 x6 x7 x8 x9 x10 x11 x12 x13 x14 : Spec.Arr 20000 128)
      = Spec.nodeOut x0 (val_main_v45 (F := Ideal) x0 x1 x2 x4 x5 x6 x7 x8 x9 x10) x3 (Spec.nodeW1 x11 x12 x13 x14) := by
  funext i
  obtain ⟨v, j, rfl⟩ : ∃ (v : Fin 20000) (j : Fin 128), i = ix2 v j := ⟨_, _, ValueIdx.eq_ix2 i⟩
  have e : idx_main_v57 (ix2 v j) = ix2 v (0 : Fin 1) :=
    funext fun a => Fin.ext (by match a with | ⟨0, _⟩ => rfl | ⟨1, _⟩ => rfl)
  rw [Spec.nodeOut_apply, val_main_v58_apply, val_main_v56_apply, val_main_v57_apply, v55_at, e,
    Ideal.mulf_def, Ideal.addf_def]
  rfl

end Cert.ReferenceIdeal.RefValue

end
-- ==== Proof.RefLayer.lean ====
/- The reference program's result as the specification's layer of its arguments: the node update over the sum of the
   message rows into their source nodes, the messages over the two row lookups. -/
import proofs.«404033_j12610023981467_1_alg».proof.Proof.RefEdge
import proofs.«404033_j12610023981467_1_alg».proof.Proof.RefNode

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

/-- The message rows summed into the node rows their source index names, from zero. -/
def aggR (x1 : (⟨S2x640000, .i32⟩ : BufTy).Contents (Elt Ideal)) (E : FVec Ideal S640000x128 .f32) : FVec Ideal S20000x128 .f32 :=
  Host.scatterAdd scatter_S20000x128_S640000x1_S640000x128_1_0_0_1 (val_main_v43 (F := Ideal)) (val_main_v44 (F := Ideal) x1) E

/-- The reference's result is the layer of its arguments. -/
theorem result_eq (x0 : (⟨S20000x128, .f32⟩ : BufTy).Contents (Elt Ideal)) (x1 : (⟨S2x640000, .i32⟩ : BufTy).Contents (Elt Ideal)) (x2 : (⟨S640000x16, .f32⟩ : BufTy).Contents (Elt Ideal)) (x3 : (⟨S20000x1, .f32⟩ : BufTy).Contents (Elt Ideal)) (x4 : (⟨S640000x1, .f32⟩ : BufTy).Contents (Elt Ideal)) (x5 : (⟨S272x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    (val_main_v58 (F := Ideal) x0 x1 x2 x3 x4 x5 x6 x7 x8 x9 x10 x11 x12 x13 x14 : Spec.Arr 20000 128)
      = Spec.layer (aggR x1) x0 (val_main_v10 (F := Ideal) x0 x1) (val_main_v17 (F := Ideal) x0 x1) x2 x3 x4
          (Spec.edgeW1 x5 x6 x7 x8 x9 x10) (Spec.nodeW1 x11 x12 x13 x14) := by
  refine (node_eq x0 x1 x2 x3 x4 x5 x6 x7 x8 x9 x10 x11 x12 x13 x14).trans ?_
  have hagg : val_main_v45 (F := Ideal) x0 x1 x2 x4 x5 x6 x7 x8 x9 x10
      = aggR x1 (Spec.edgeMsg (val_main_v10 (F := Ideal) x0 x1) (val_main_v17 (F := Ideal) x0 x1) x2 x4 (Spec.edgeW1 x5 x6 x7 x8 x9 x10)) := by
    rw [← edge_eq x0 x1 x2 x4 x5 x6 x7 x8 x9 x10]
    rfl
  rw [hagg]
  rfl

end Cert.ReferenceIdeal.RefValue

end
-- ==== Proof.Bridge.lean ====
/- The two programs' host operations are the same functions: the sum of message rows into node rows, and the two
   row lookups by the rows of the edge list, are spelt alike in both programs. -/
import proofs.«404033_j12610023981467_1_alg».proof.Proof.KHost
import proofs.«404033_j12610023981467_1_alg».proof.Proof.RefLayer

noncomputable section

namespace Cert.Bridge

open Idealize.ShloMosaic Idealize.ShloMosaic.TcCoe

/-- Both programs sum the message rows into node rows by the same scatter from zero over the same index column. -/
theorem agg_eq (EI : IVec Cert.KernelIdeal.S2x640000 32) :
    Cert.KernelIdeal.KHost.aggK EI = Cert.ReferenceIdeal.RefValue.aggR EI := by
  funext E
  unfold Cert.KernelIdeal.KHost.aggK Cert.ReferenceIdeal.RefValue.aggR Cert.KernelIdeal.KHost.rowI
    Cert.ReferenceIdeal.ReadP.val_main_v43 Cert.ReferenceIdeal.ReadP.val_main_cst_4 Cert.ReferenceIdeal.ReadP.val_main_v44
    Cert.ReferenceIdeal.ReadP.val_main_v1 Cert.ReferenceIdeal.ReadP.val_main_v0
  rfl

/-- Both programs look the source rows up by the same wrapped index column. -/
theorem take_row_eq (h : FVec Ideal Cert.KernelIdeal.S20000x128 .f32) (EI : IVec Cert.KernelIdeal.S2x640000 32) :
    Cert.KernelIdeal.KHost.takeK h (Cert.KernelIdeal.KHost.rowI EI) = Cert.ReferenceIdeal.ReadP.val_main_v10 (F := Ideal) h EI := by
  unfold Cert.KernelIdeal.KHost.takeK Cert.KernelIdeal.KHost.gidx Cert.KernelIdeal.KHost.wrap Cert.KernelIdeal.KHost.rowI
    Cert.ReferenceIdeal.ReadP.val_main_v10 Cert.ReferenceIdeal.ReadP.val_main_v9 Cert.ReferenceIdeal.ReadP.val_main_v8
    Cert.ReferenceIdeal.ReadP.val_main_v7 Cert.ReferenceIdeal.ReadP.val_main_v6 Cert.ReferenceIdeal.ReadP.val_main_c_0
    Cert.ReferenceIdeal.ReadP.val_main_v5 Cert.ReferenceIdeal.ReadP.val_main_v4 Cert.ReferenceIdeal.ReadP.val_main_c
    Cert.ReferenceIdeal.ReadP.val_main_v1 Cert.ReferenceIdeal.ReadP.val_main_v0
  rfl

/-- Both programs look the target rows up by the same wrapped index column. -/
theorem take_col_eq (h : FVec Ideal Cert.KernelIdeal.S20000x128 .f32) (EI : IVec Cert.KernelIdeal.S2x640000 32) :
    Cert.KernelIdeal.KHost.takeK h (Cert.KernelIdeal.KHost.colI EI) = Cert.ReferenceIdeal.ReadP.val_main_v17 (F := Ideal) h EI := by
  unfold Cert.KernelIdeal.KHost.takeK Cert.KernelIdeal.KHost.gidx Cert.KernelIdeal.KHost.wrap Cert.KernelIdeal.KHost.colI
    Cert.ReferenceIdeal.ReadP.val_main_v17 Cert.ReferenceIdeal.ReadP.val_main_v16 Cert.ReferenceIdeal.ReadP.val_main_v15
    Cert.ReferenceIdeal.ReadP.val_main_v14 Cert.ReferenceIdeal.ReadP.val_main_v13 Cert.ReferenceIdeal.ReadP.val_main_c_2
    Cert.ReferenceIdeal.ReadP.val_main_v12 Cert.ReferenceIdeal.ReadP.val_main_v11 Cert.ReferenceIdeal.ReadP.val_main_c_1
    Cert.ReferenceIdeal.ReadP.val_main_v3 Cert.ReferenceIdeal.ReadP.val_main_v2
  rfl

end Cert.Bridge

end
-- ==== Proof.lean ====
/- The certificate of the message-passing layer: the Pallas program (a row lookup of the two endpoints of every edge,
   the edge network in blocks of 8000 edges, the sum of the messages into their source nodes, the node network in blocks
   of 5000 nodes) against its jnp reference, over the extended reals.

   Both programs compute, row by row, the same function of the arguments (Proof/Spec.lean): the kernels' blocks are
   restrictions of whole-array functions whose row r depends on row r of the inputs only, a matrix product with a
   weight matrix is the same finite sum in a block as in the whole array, and the host operations between the kernels
   (the lookups, the scatter-add) are spelt alike in both programs. The two differ only where an index of the edge list
   is out of range: there the kernel program's take fills a row the reference's lookup clamps, so the precondition
   asks the edge list's entries to lie in [0, 20000); under it the fill is never taken. No law of arithmetic beyond
   the definitions is used, so finiteness of the float inputs plays no part. -/
import proofs.«404033_j12610023981467_1_alg».proof.Defs
import proofs.«404033_j12610023981467_1_alg».proof.Proof.Gen.Kernel
import proofs.«404033_j12610023981467_1_alg».proof.Proof.Gen.Kernel.Skeleton
import proofs.«404033_j12610023981467_1_alg».proof.Proof.Gen.Kernel.Launch
import proofs.«404033_j12610023981467_1_alg».proof.Proof.Gen.Kernel.Points
import proofs.«404033_j12610023981467_1_alg».proof.Proof.Gen.Kernel.Frame
import proofs.«404033_j12610023981467_1_alg».proof.Proof.Gen.KernelIdeal
import proofs.«404033_j12610023981467_1_alg».proof.Proof.Gen.KernelIdeal.Skeleton
import proofs.«404033_j12610023981467_1_alg».proof.Proof.Gen.KernelIdeal.Launch
import proofs.«404033_j12610023981467_1_alg».proof.Proof.Gen.KernelIdeal.Points
import proofs.«404033_j12610023981467_1_alg».proof.Proof.Gen.KernelIdeal.Frame
import proofs.«404033_j12610023981467_1_alg».proof.Proof.Gen.ReferenceIdeal
import proofs.«404033_j12610023981467_1_alg».proof.Proof.RefRun
import proofs.«404033_j12610023981467_1_alg».proof.Proof.Gen.Pre_finite_inputs
import proofs.«404033_j12610023981467_1_alg».proof.Proof.KernelRun
import proofs.«404033_j12610023981467_1_alg».proof.Proof.KernelValue
import proofs.«404033_j12610023981467_1_alg».proof.Proof.PreDecode
import proofs.«404033_j12610023981467_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- Both programs end with the layer of the arguments in their result array. -/
theorem algebraic : Cert.algebraic_KernelIdeal_ReferenceIdeal := by
  intro m ρ m' ρ' hpre hagree
  refine ⟨fun c => Cert.KernelIdeal.Gen.W7 m ρ c (Proc.devRef .tc Cert.KernelIdeal.main_v15),
    Cert.KernelIdeal.RunNamed.run_named (F := Ideal) m ρ, ?_⟩
  refine (θ_run Cert.ReferenceIdeal.defs _ _).mono (fun _ h c => ⟨(h c).1.trans ?_, (h c).2⟩)
    (Cert.ReferenceIdeal.RunHand.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  refine (Cert.ReferenceIdeal.RefValue.result_eq _ _ _ _ _ _ _ _ _ _ _ _ _ _ _).trans ?_
  refine Eq.trans ?_ (Cert.KernelIdeal.KValue.result_eq m ρ c (Cert.PreDecode.edge_index_inrange m hpre c)).symm
  rw [← Cert.Bridge.agg_eq, ← Cert.Bridge.take_row_eq, ← Cert.Bridge.take_col_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
